-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S2x4x128x32 : Shape := ⟨4, ![2, 4, 128, 32]⟩
abbrev S_ : Shape := ⟨0, ![]⟩
abbrev S10000 : Shape := ⟨1, ![10000]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S2x4x128x32 : S_.BroadcastsInDim S2x4x128x32 (![] : Fin 0 → Fin S2x4x128x32.rank)
  reducesTo_S2x4x128x32_S_d0_1_2_3 : S2x4x128x32.ReducesTo [0, 1, 2, 3] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_arg0 : FVec F S10000x10000 .f32) (main_v13 : IVec S_ 1) (main_v14 : IVec S10000x10000 32) (main_v15 : IVec S10000x10000 32) (main_v16 : IVec S10000x10000 32) : IVec S_ 1 :=
  let main_v17 : IVec S10000x10000 32 := addi main_v14 main_v16
  let main_v18 : IVec S10000x10000 1 := cmpi .eq main_v17 main_v15
  let main_v19 : FVec F S10000x10000 .f32 := uitofp .f32 main_v18
  let main_v20 : FVec F S10000x10000 .f32 := addf main_arg0 main_v19
  let main_cst_5 : FVec F S_ .f32 := constant S_ .f32 0x00000000#32
  let main_v21 : FVec F S10000 .f32 := (fun x v => Host.reduceAdd x v reducesTo_S10000x10000_S10000_d1 h_S_) main_v20 main_cst_5
  let main_cst_6 : FVec F S_ .f32 := constant S_ .f32 0x00000000#32
  let main_v22 : FVec F S10000 .f32 := broadcastInDim S10000 ![] bcast_S_S10000 main_cst_6
  let main_v23 : IVec S10000 1 := cmpf .ogt main_v21 main_v22
  let main_c_7 : IVec S_ 1 := constantI S_ 1 1#1
  let main_v24 : IVec S_ 1 := (fun x v => Host.reduce IntOp.andi x v reducesTo_S10000_S_d0 h_S_) main_v23 main_c_7
  let main_v25 : IVec S_ 1 := andi main_v13 main_v24
  main_v25

def fn {F : FTy → Type} [FloatOps F] (main_arg0 : FVec F S10000x10000 .f32) (main_arg1 : FVec F S10000x128 .f32) (main_arg2 : FVec F S2x4x128x32 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S2x4x128x32 .f32 := Host.absf main_arg2
  let main_cst_2 : FVec F S_ .f32 := constant S_ .f32 0x7F800000#32
  let main_v10 : FVec F S2x4x128x32 .f32 := broadcastInDim S2x4x128x32 ![] bcast_S_S2x4x128x32 main_cst_2
  let main_v11 : IVec S2x4x128x32 1 := cmpf .olt main_v9 main_v10
  let main_c_3 : IVec S_ 1 := constantI S_ 1 1#1
  let main_v12 : IVec S_ 1 := (fun x v => Host.reduce IntOp.andi x v reducesTo_S2x4x128x32_S_d0_1_2_3 h_S_) main_v11 main_c_3
  let main_v13 : IVec S_ 1 := andi main_v8 main_v12
  let main_v14 : IVec S10000x10000 32 := iotaInDim S10000x10000 32 0
  let main_v15 : IVec S10000x10000 32 := iotaInDim S10000x10000 32 1
  let main_c_4 : IVec S_ 32 := constantI S_ 32 0#32
  let main_v16 : IVec S10000x10000 32 := broadcastInDim S10000x10000 ![] bcast_S_S10000x10000 main_c_4
  fn_part1 (F := F) main_arg0 main_v13 main_v14 main_v15 main_v16
-- ==== Kernel.lean ====
abbrev S10000x10000 : Shape := ⟨2, ![10000, 10000]⟩
abbrev S10000x128 : Shape := ⟨2, ![10000, 128]⟩
abbrev S2x4x128x32 : Shape := ⟨4, ![2, 4, 128, 32]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S400 : Shape := ⟨1, ![400]⟩
abbrev S1x4x128x32 : Shape := ⟨4, ![1, 4, 128, 32]⟩
abbrev S4x128x32 : Shape := ⟨3, ![4, 128, 32]⟩
abbrev S128x4x32 : Shape := ⟨3, ![128, 4, 32]⟩
abbrev S128x128 : Shape := ⟨2, ![128, 128]⟩

abbrev nBuf : Space → Nat
  | .hbm => 15
  | .vmem => 28
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S2x4x128x32, .f32⟩
  | .hbm, ⟨3, _⟩ => ⟨S10000x1, .f32⟩
  | .hbm, ⟨4, _⟩ => ⟨S10000x128, .f32⟩
  | .hbm, ⟨5, _⟩ => ⟨S1x4x128x32, .f32⟩
  | .hbm, ⟨6, _⟩ => ⟨S4x128x32, .f32⟩
  | .hbm, ⟨7, _⟩ => ⟨S128x4x32, .f32⟩
  | .hbm, ⟨8, _⟩ => ⟨S128x128, .f32⟩
  | .hbm, ⟨9, _⟩ => ⟨S10000x128, .f32⟩
  | .hbm, ⟨10, _⟩ => ⟨S1x4x128x32, .f32⟩
  | .hbm, ⟨11, _⟩ => ⟨S4x128x32, .f32⟩
  | .hbm, ⟨12, _⟩ => ⟨S128x4x32, .f32⟩
  | .hbm, ⟨13, _⟩ => ⟨S128x128, .f32⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S400x128, .f32⟩
  | .local _ .vmem, ⟨3, _⟩ => ⟨S400x128, .f32⟩
  | .local _ .vmem, ⟨4, _⟩ => ⟨S400x1, .f32⟩
  | .local _ .vmem, ⟨5, _⟩ => ⟨S400x1, .f32⟩
  | .local _ .vmem, ⟨6, _⟩ => ⟨S400x128, .f32⟩
  | .local _ .vmem, ⟨7, _⟩ => ⟨S400x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S400x128, .f32⟩
  | .local _ .vmem, ⟨12, _⟩ => ⟨S400x128, .f32⟩
  | .local _ .vmem, ⟨13, _⟩ => ⟨S400x1, .f32⟩
  | .local _ .vmem, ⟨14, _⟩ => ⟨S400x1, .f32⟩
  | .local _ .vmem, ⟨15, _⟩ => ⟨S128x128, .f32⟩
  | .local _ .vmem, ⟨16, _⟩ => ⟨S400x128, .f32⟩
  | .local _ .vmem, ⟨17, _⟩ => ⟨S400x128, .f32⟩
  | .local _ .vmem, ⟨18, _⟩ => ⟨S400x10000, .f32⟩
  | .local _ .vmem, ⟨19, _⟩ => ⟨S400x10000, .f32⟩
  | .local _ .vmem, ⟨20, _⟩ => ⟨S10000x128, .f32⟩
  | .local _ .vmem, ⟨21, _⟩ => ⟨S400x128, .f32⟩
  | .local _ .vmem, ⟨22, _⟩ => ⟨S400x128, .f32⟩
  | .local _ .vmem, ⟨23, _⟩ => ⟨S400x1, .f32⟩
  | .local _ .vmem, ⟨24, _⟩ => ⟨S400x1, .f32⟩
  | .local _ .vmem, ⟨25, _⟩ => ⟨S128x128, .f32⟩
  | .local _ .vmem, ⟨26, _⟩ => ⟨S400x128, .f32⟩
  | .local _ .vmem, ⟨27, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S400x128_S400x128_0_0 : ∀ a, (![0, 0] : Fin 2 → Nat) a + S400x128.size a ≤ S400x128.size a
  h_S400x128 : 0 < S400x128.numel
  broadcasts_S400x1_S400x128 : S400x1.Broadcasts S400x128
  slices_S2x4x128x32_S1x4x128x32_0_0_0_0 : S2x4x128x32.Slices ![0, 0, 0, 0] S1x4x128x32
  shapeCasts_S1x4x128x32_S4x128x32 : S1x4x128x32.ShapeCasts S4x128x32
  transposes_S4x128x32_S128x4x32_1_0_2 : S4x128x32.Transposes [1, 0, 2] S128x4x32
  shapeCasts_S128x4x32_S128x128 : S128x4x32.ShapeCasts S128x128
  shapeCasts_S400x1_S400x1 : S400x1.ShapeCasts S400x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x128_S400x128 : S400x128.ShapeCasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x4x128x32_S1x4x128x32_1_0_0_0 : S2x4x128x32.Slices ![1, 0, 0, 0] S1x4x128x32
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S10000x1.size a
  hwx0_2 : ∀ i : grid0.Coords, EltTy.bits .f32 = 32 ∨ (Rect.block (s := S10000x1) S400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S10000x1.size a
  hwx1_3 : ∀ i : grid1.Coords, EltTy.bits .f32 = 32 ∨ (Rect.block (s := S10000x1) S400x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S400x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_0) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S2x4x128x32 : Shape := ⟨4, ![2, 4, 128, 32]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x1x128x32 : Shape := ⟨4, ![1, 1, 128, 32]⟩
abbrev S128x32 : Shape := ⟨2, ![128, 32]⟩
abbrev S10000x32 : Shape := ⟨2, ![10000, 32]⟩

abbrev nBuf : Space → Nat
  | .hbm => 51
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S2x4x128x32, .f32⟩
  | .hbm, ⟨3, _⟩ => ⟨S10000x10000, .i32⟩
  | .hbm, ⟨4, _⟩ => ⟨S10000x10000, .i32⟩
  | .hbm, ⟨5, _⟩ => ⟨S_, .i32⟩
  | .hbm, ⟨6, _⟩ => ⟨S10000x10000, .i32⟩
  | .hbm, ⟨7, _⟩ => ⟨S10000x10000, .i32⟩
  | .hbm, ⟨8, _⟩ => ⟨S10000x10000, .i1⟩
  | .hbm, ⟨9, _⟩ => ⟨S10000x10000, .f32⟩
  | .hbm, ⟨10, _⟩ => ⟨S10000x10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x10000, .f32⟩
  | .hbm, ⟨16, _⟩ => ⟨S10000x10000, .f32⟩
  | .hbm, ⟨17, _⟩ => ⟨S1x10000, .f32⟩
  | .hbm, ⟨18, _⟩ => ⟨S10000x10000, .f32⟩
  | .hbm, ⟨19, _⟩ => ⟨S10000x10000, .f32⟩
  | .hbm, ⟨20, _⟩ => ⟨S10000x128, .f32⟩
  | .hbm, ⟨21, _⟩ => ⟨S1x1x128x32, .f32⟩
  | .hbm, ⟨22, _⟩ => ⟨S128x32, .f32⟩
  | .hbm, ⟨23, _⟩ => ⟨S10000x32, .f32⟩
  | .hbm, ⟨24, _⟩ => ⟨S1x1x128x32, .f32⟩
  | .hbm, ⟨25, _⟩ => ⟨S128x32, .f32⟩
  | .hbm, ⟨26, _⟩ => ⟨S10000x32, .f32⟩
  | .hbm, ⟨27, _⟩ => ⟨S1x1x128x32, .f32⟩
  | .hbm, ⟨28, _⟩ => ⟨S128x32, .f32⟩
  | .hbm, ⟨29, _⟩ => ⟨S10000x32, .f32⟩
  | .hbm, ⟨30, _⟩ => ⟨S1x1x128x32, .f32⟩
  | .hbm, ⟨31, _⟩ => ⟨S128x32, .f32⟩
  | .hbm, ⟨32, _⟩ => ⟨S10000x32, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x1x128x32, .f32⟩
  | .hbm, ⟨39, _⟩ => ⟨S128x32, .f32⟩
  | .hbm, ⟨40, _⟩ => ⟨S10000x32, .f32⟩
  | .hbm, ⟨41, _⟩ => ⟨S1x1x128x32, .f32⟩
  | .hbm, ⟨42, _⟩ => ⟨S128x32, .f32⟩
  | .hbm, ⟨43, _⟩ => ⟨S10000x32, .f32⟩
  | .hbm, ⟨44, _⟩ => ⟨S1x1x128x32, .f32⟩
  | .hbm, ⟨45, _⟩ => ⟨S128x32, .f32⟩
  | .hbm, ⟨46, _⟩ => ⟨S10000x32, .f32⟩
  | .hbm, ⟨47, _⟩ => ⟨S1x1x128x32, .f32⟩
  | .hbm, ⟨48, _⟩ => ⟨S128x32, .f32⟩
  | .hbm, ⟨49, _⟩ => ⟨S10000x32, .f32⟩
  | .hbm, ⟨50, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_cst : Ref sig .tc := ⟨.hbm, 34, rfl⟩
abbrev main_call0_v0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  slices_S2x4x128x32_S1x1x128x32_0_0_0_0 : S2x4x128x32.Slices ![0, 0, 0, 0] S1x1x128x32
  shapeCasts_S1x1x128x32_S128x32 : S1x1x128x32.ShapeCasts S128x32
  slices_S2x4x128x32_S1x1x128x32_0_1_0_0 : S2x4x128x32.Slices ![0, 1, 0, 0] S1x1x128x32
  slices_S2x4x128x32_S1x1x128x32_0_2_0_0 : S2x4x128x32.Slices ![0, 2, 0, 0] S1x1x128x32
  slices_S2x4x128x32_S1x1x128x32_0_3_0_0 : S2x4x128x32.Slices ![0, 3, 0, 0] S1x1x128x32
  concatenates_S10000x32_S10000x32_S10000x32_S10000x32_S10000x128_d1 : Shape.Concatenates [S10000x32, S10000x32, S10000x32, S10000x32] S10000x128 1
  bcast_S_S10000x128 : S_.BroadcastsInDim S10000x128 (![] : Fin 0 → Fin S10000x128.rank)
  slices_S2x4x128x32_S1x1x128x32_1_0_0_0 : S2x4x128x32.Slices ![1, 0, 0, 0] S1x1x128x32
  slices_S2x4x128x32_S1x1x128x32_1_1_0_0 : S2x4x128x32.Slices ![1, 1, 0, 0] S1x1x128x32
  slices_S2x4x128x32_S1x1x128x32_1_2_0_0 : S2x4x128x32.Slices ![1, 2, 0, 0] S1x1x128x32
  slices_S2x4x128x32_S1x1x128x32_1_3_0_0 : S2x4x128x32.Slices ![1, 3, 0, 0] S1x1x128x32
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

class Facts : Prop extends Facts₀ where

variable [Facts]
-- ==== Proof.KI.Body0.lean ====
/-
  The first pass (the degree kernel), one grid point at a time: on a block of 400 rows it reads the rows of A and of the
  features, and leaves in its two output buffers r = (row sum of A + 1)^(-1/2) for those rows and the rows of the
  features each scaled by its r. What the point leaves depends only on the two input blocks.
-/
import proofs.«137941_g48387101557188_cont_8to1_c_480_3_alg».proof.Proof.Gen.KernelIdeal.Launch
import proofs.«137941_g48387101557188_cont_8to1_c_480_3_alg».proof.Proof.Gen.KernelIdeal.Skeleton
import proofs.«137941_g48387101557188_cont_8to1_c_480_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer whole -/

abbrev rA0 : Rect S400x10000 := Rect.unit (s := S400x10000) ![0, 0] S400x10000.size inb_S400x10000_S400x10000_0_0
abbrev rD0 : Rect S400x1 := Rect.unit (s := S400x1) ![0, 0] S400x1.size inb_S400x1_S400x1_0_0
abbrev rY0 : Rect S400x128 := Rect.unit (s := S400x128) ![0, 0] S400x128.size inb_S400x128_S400x128_0_0

/-! ## What the body leaves in each output buffer -/

/-- The r column of the block: one store of the whole buffer. -/
def out0_2 (x0 : Vec F S400x10000 .f32) : Vec F S400x1 .f32 :=
  View.canon [⟨rD0, k0_pay1 (View.ld x0 rA0)⟩]

/-- The scaled feature rows of the block: one store of the whole buffer. -/
def out0_3 (x0 : Vec F S400x10000 .f32) (x1 : Vec F S400x128 .f32) : Vec F S400x128 .f32 :=
  View.canon [⟨rY0, k0_pay2 (View.ld x0 rA0) (View.ld x1 rY0)⟩]

/-! ## The proof data -/

/-- The arrays as the region finds them; after the body at point t each input's buffer still at its block and each
    output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-! ## The inputs' buffers hold their blocks -/

/-- Input window 0's current buffer holds its block of A at every point, fetched there or not, for any proof data
    whose array is the region-entry contents and whose body leaves the block in place: unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, the block of feature rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## Each output's one store covers its buffer -/

/-- The single store of the r column is of the whole 400x1 buffer, so every index lies in it. -/
theorem cover0_2 (p0 : Vec F S400x1 .f32) (y : S400x1.Idx) :
    ∃ pc ∈ ([⟨rD0, p0⟩] : List (View.Piece (Elt F) S400x1 .f32)), y ∈ pc.1.set :=
  View.cover_of_tiled [⟨rD0, p0⟩] S400x1.size (by rfl) y

/-- The single store of the scaled rows is of the whole 400x128 buffer, so every index lies in it. -/
theorem cover0_3 (p0 : Vec F S400x128 .f32) (y : S400x128.Idx) :
    ∃ pc ∈ ([⟨rY0, p0⟩] : List (View.Piece (Elt F) S400x128 .f32)), y ∈ pc.1.set :=
  View.cover_of_tiled [⟨rY0, p0⟩] S400x128.size (by rfl) y

/-! ## The body's triple -/

set_option maxHeartbeats 1000000 in
/-- The kernel body on whole buffers, the two inputs' at contents x0 and x1 and the two outputs' at anything, runs to
    the continuation holding the inputs' as they were, the r column's at out0_2 x0 and the scaled rows' at
    out0_3 x0 x1. Each output buffer is read once before it is overwritten; the value read is not used, and the
    store that follows replaces the whole buffer. -/
theorem sound_kernel0 (c : Dev nD) (E : Set ℕ) (i : grid0.Coords)
    (arg1 : Memref sig .tc .vmem S400x10000 .f32) (harg1 : arg1.IsWhole)
    (arg2 : Memref sig .tc .vmem S400x128 .f32) (harg2 : arg2.IsWhole)
    (arg3 : Memref sig .tc .vmem S400x1 .f32) (harg3 : arg3.IsWhole)
    (arg4 : Memref sig .tc .vmem S400x128 .f32) (harg4 : arg4.IsWhole)
    (x0 : Vec F S400x10000 .f32) (x1 : Vec F S400x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__deg_kernel i arg1 harg1 arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The body at a generic point -/

/-- What the body is called with at point t: the invariant, the core's debts, and each window's current buffer at
    what the pipeline left in it, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debts, and each window's buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two inputs' buffers hold their blocks, so the body's triple applies at those blocks;
    the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The body obligation -/

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The first layer's pass, one grid point at a time: on a block of 400 rows it reads the rows of A, all of the row-scaled
  features y, the block's own rows of y, the block's r column and the stacked weights, and leaves in its output buffer
  r · max (((r · (A y + y)) · Wl)) 0 for those rows. What the point leaves depends only on the five input blocks.
-/
import proofs.«137941_g48387101557188_cont_8to1_c_480_3_alg».proof.Proof.Gen.KernelIdeal.Launch
import proofs.«137941_g48387101557188_cont_8to1_c_480_3_alg».proof.Proof.Gen.KernelIdeal.Skeleton
import proofs.«137941_g48387101557188_cont_8to1_c_480_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole -/

abbrev rA1 : Rect S400x10000 := Rect.unit (s := S400x10000) ![0, 0] S400x10000.size inb_S400x10000_S400x10000_0_0
abbrev rF1 : Rect S10000x128 := Rect.unit (s := S10000x128) ![0, 0] S10000x128.size inb_S10000x128_S10000x128_0_0
abbrev rY1 : Rect S400x128 := Rect.unit (s := S400x128) ![0, 0] S400x128.size inb_S400x128_S400x128_0_0
abbrev rD1 : Rect S400x1 := Rect.unit (s := S400x1) ![0, 0] S400x1.size inb_S400x1_S400x1_0_0
abbrev rW1 : Rect S128x128 := Rect.unit (s := S128x128) ![0, 0] S128x128.size inb_S128x128_S128x128_0_0

/-! ## What the body leaves in the output buffer -/

/-- The block's rows of the hidden activations, rectified and scaled by r: one store of the whole buffer. -/
def out1_5 (x0 : Vec F S400x10000 .f32) (x1 : Vec F S10000x128 .f32) (x2 : Vec F S400x128 .f32) (x3 : Vec F S400x1 .f32) (x4 : Vec F S128x128 .f32) :
    Vec F S400x128 .f32 :=
  View.canon [⟨rY1, k1_pay1 (View.ld x3 rD1) (View.ld x0 rA1) (View.ld x1 rF1) (View.ld x2 rY1) (View.ld x4 rW1)⟩]

/-! ## The proof data -/

/-- The arrays as the region finds them; after the body at point t each input's buffer still at its block and the
    output's at its function of the input blocks; nothing owed. The row-scaled features are handed to the kernel twice
    (whole, and block by block): the two windows hold the two halves of that array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in each input's buffer -/

/-- Input window 0 (the block's rows of A): its current buffer holds its block at every point, fetched there or not (unfetched, the
    block index has not moved), for any proof data whose array is the region's entry contents and whose body leaves the
    block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all of y): its current buffer holds its block at every point, fetched there or not (unfetched, the
    block index has not moved), for any proof data whose array is the region's entry contents and whose body leaves the
    block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the block's rows of y): its current buffer holds its block at every point, fetched there or not (unfetched, the
    block index has not moved), for any proof data whose array is the region's entry contents and whose body leaves the
    block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the block's r column): its current buffer holds its block at every point, fetched there or not (unfetched, the
    block index has not moved), for any proof data whose array is the region's entry contents and whose body leaves the
    block in place; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the stacked weights): its current buffer holds its block at every point, fetched there or not (unfetched, the
    block index has not moved), for any proof data whose array is the region's entry contents and whose body leaves the
    block in place; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The store's rectangle is the whole buffer (checked by evaluation), so it covers it. -/
theorem cover1_5 (p0 : Vec F S400x128 .f32) (y : S400x128.Idx) :
    ∃ pc ∈ ([⟨rY1, p0⟩] : List (View.Piece (Elt F) S400x128 .f32)), y ∈ pc.1.set :=
  View.cover_of_tiled [⟨rY1, p0⟩] S400x128.size (by rfl) y

/-! ## The body's triple -/

set_option maxHeartbeats 1000000 in
/-- The kernel body on whole staging memrefs, the five inputs' at read contents and the output's at anything, runs to the
    continuation holding the inputs' as they were and the output's at `out1_5` of the inputs'. The body reads the r column,
    then A's rows, all of y, y's rows and the weights, then the output buffer itself (a value it never uses), and stores once. -/
theorem sound_kernel1 (c : Dev nD) (E : Set ℕ) (i : grid1.Coords)
    (arg0 : Memref sig .tc .vmem S400x10000 .f32) (harg0 : arg0.IsWhole) (arg1 : Memref sig .tc .vmem S10000x128 .f32) (harg1 : arg1.IsWhole)
    (arg2 : Memref sig .tc .vmem S400x128 .f32) (harg2 : arg2.IsWhole) (arg3 : Memref sig .tc .vmem S400x1 .f32) (harg3 : arg3.IsWhole)
    (arg4 : Memref sig .tc .vmem S128x128 .f32) (harg4 : arg4.IsWhole) (arg5 : Memref sig .tc .vmem S400x128 .f32) (harg5 : arg5.IsWhole)
    (x0 : Vec F S400x10000 .f32) (x1 : Vec F S10000x128 .f32) (x2 : Vec F S400x128 .f32) (x3 : Vec F S400x1 .f32) (x4 : Vec F S128x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__layer_kernel i arg0 harg0 arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The inputs' buffers under this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body at a generic point -/

/-- What the body is called with at point t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The body obligation -/

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The second layer's pass, one grid point at a time: on a block of 400 rows it reads the rows of A, all of the row-scaled
  hidden activations y, the block's own rows of y, the block's r column and the stacked weights, and leaves in its output
  buffer (r · (A y + y)) · Wl for those rows. What the point leaves depends only on the five input blocks.
-/
import proofs.«137941_g48387101557188_cont_8to1_c_480_3_alg».proof.Proof.Gen.KernelIdeal.Launch
import proofs.«137941_g48387101557188_cont_8to1_c_480_3_alg».proof.Proof.Gen.KernelIdeal.Skeleton
import proofs.«137941_g48387101557188_cont_8to1_c_480_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole -/

abbrev rA2 : Rect S400x10000 := Rect.unit (s := S400x10000) ![0, 0] S400x10000.size inb_S400x10000_S400x10000_0_0
abbrev rF2 : Rect S10000x128 := Rect.unit (s := S10000x128) ![0, 0] S10000x128.size inb_S10000x128_S10000x128_0_0
abbrev rY2 : Rect S400x128 := Rect.unit (s := S400x128) ![0, 0] S400x128.size inb_S400x128_S400x128_0_0
abbrev rD2 : Rect S400x1 := Rect.unit (s := S400x1) ![0, 0] S400x1.size inb_S400x1_S400x1_0_0
abbrev rW2 : Rect S128x128 := Rect.unit (s := S128x128) ![0, 0] S128x128.size inb_S128x128_S128x128_0_0

/-! ## What the body leaves in the output buffer -/

/-- The block's rows of the result: one store of the whole buffer. -/
def out2_5 (x0 : Vec F S400x10000 .f32) (x1 : Vec F S10000x128 .f32) (x2 : Vec F S400x128 .f32) (x3 : Vec F S400x1 .f32) (x4 : Vec F S128x128 .f32) :
    Vec F S400x128 .f32 :=
  View.canon [⟨rY2, k2_pay1 (View.ld x3 rD2) (View.ld x0 rA2) (View.ld x1 rF2) (View.ld x2 rY2) (View.ld x4 rW2)⟩]

/-! ## The proof data -/

/-- The arrays as the region finds them; after the body at point t each input's buffer still at its block and the
    output's at its function of the input blocks; nothing owed. The row-scaled features are handed to the kernel twice
    (whole, and block by block): the two windows hold the two halves of that array's share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## Each input's staging buffer holds its block -/

/-- Input window 0 (the rows of A): its current staging buffer holds its block at every point, fetched there or not
    (unfetched, the block index has not moved), for any proof data whose array is the entry contents and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (all of y): its current staging buffer holds its block at every point, fetched there or not
    (unfetched, the block index has not moved), for any proof data whose array is the entry contents and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the block's rows of y): its current staging buffer holds its block at every point, fetched there or not
    (unfetched, the block index has not moved), for any proof data whose array is the entry contents and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the block's r column): its current staging buffer holds its block at every point, fetched there or not
    (unfetched, the block index has not moved), for any proof data whose array is the entry contents and whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the stacked weights): its current staging buffer holds its block at every point, fetched there or not
    (unfetched, the block index has not moved), for any proof data whose array is the entry contents and whose body leaves
    the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The store covers the output buffer -/

/-- The one store is of the whole buffer, so it covers it (checked by evaluation). -/
theorem cover2_5 (p0 : Vec F S400x128 .f32) (y : S400x128.Idx) :
    ∃ pc ∈ ([⟨rY2, p0⟩] : List (View.Piece (Elt F) S400x128 .f32)), y ∈ pc.1.set :=
  View.cover_of_tiled [⟨rY2, p0⟩] S400x128.size (by rfl) y

/-! ## The body's triple -/

set_option maxHeartbeats 1000000 in
/-- The kernel body on whole staging memrefs, the five inputs' at read contents and the output's at anything, runs to the
    continuation holding the inputs' as they were and the output's at out2_5 of the inputs'. The body reads the r column,
    the rows of A, y, the block's rows of y and the weights, in that order; it also reads the output buffer before storing
    into it, a value it never uses. -/
theorem sound_kernel2 (c : Dev nD) (E : Set ℕ) (i : grid2.Coords) (arg0 : Memref sig .tc .vmem S400x10000 .f32) (harg0 : arg0.IsWhole) (arg1 : Memref sig .tc .vmem S10000x128 .f32) (harg1 : arg1.IsWhole) (arg2 : Memref sig .tc .vmem S400x128 .f32) (harg2 : arg2.IsWhole) (arg3 : Memref sig .tc .vmem S400x1 .f32) (harg3 : arg3.IsWhole) (arg4 : Memref sig .tc .vmem S128x128 .f32) (harg4 : arg4.IsWhole) (arg5 : Memref sig .tc .vmem S400x128 .f32) (harg5 : arg5.IsWhole)
    (x0 : Vec F S400x10000 .f32) (x1 : Vec F S10000x128 .f32) (x2 : Vec F S400x128 .f32) (x3 : Vec F S400x1 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__layer_kernel i arg0 harg0 arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The inputs' buffers under this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The body obligation -/

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Shared.lean ====
/-
  The two layer passes hand one array to the kernel through two windows (all of the row-scaled features, and the
  block's own rows of them). A core holds each of its buffers whole at the full share; at such a region's entry the shared
  buffer's share is split in two, one half per window that reads it, and at the exit the halves, which hold the same
  contents (a pass only reads that array), are joined again. Around the split and the join the region's arrays are spelt
  out one by one on the buffers they live in.
-/
import proofs.«137941_g48387101557188_cont_8to1_c_480_3_alg».proof.Proof.KI.Body1
import proofs.«137941_g48387101557188_cont_8to1_c_480_3_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1 -/

section Region1

variable (V : (c : Dev nD) → (b : Ref sig .tc) → Buf (Elt F) ((c : Thread nD τ).loc b))

/-- The region's arrays one by one, each on its buffer: the features' buffer twice, at its two half shares. -/
theorem arrays1_eq (c : Dev nD) (Fv : (w : Fin cfg1.W) → Buf (Elt F) ((cfg1.win w).arr.view.loc (c.tc : Thread nD τ))) :
    ((dat1 V c).arrays Fv : sProp 𝕄)
      = iprop((((c.tc : Thread nD τ).loc main_arg0) ↦{fullShare} Fv 0)
          ∗ (((c.tc : Thread nD τ).loc main_v0_1) ↦{fullShare.left} Fv 1)
          ∗ (((c.tc : Thread nD τ).loc main_v0_1) ↦{fullShare.right} Fv 2)
          ∗ (((c.tc : Thread nD τ).loc main_v0_0) ↦{fullShare} Fv 3)
          ∗ (((c.tc : Thread nD τ).loc main_v4) ↦{fullShare} Fv 4)
          ∗ (((c.tc : Thread nD τ).loc main_v5) ↦{fullShare} Fv 5)) := by
  unfold Dat.arrays
  rw [bigSep_W1, (arr_whole1 0).set_eq_univ, (arr_whole1 1).set_eq_univ,
    (arr_whole1 3).set_eq_univ, (arr_whole1 4).set_eq_univ, (arr_whole1 5).set_eq_univ]
  rfl

/-- The distinct buffers behind the region's arrays, one by one. -/
theorem arrBufs1_eq (c : Dev nD) (Vc : (b : Ref sig .tc) → Buf (Elt F) ((c.tc : Thread nD τ).loc b)) :
    (Pipeline.arrBufs (Ix := Unit) (Name := ℕ) (U := UR sig nD τ) (Lvl := ℕ) spec1 c Vc : sProp 𝕄)
      = iprop((((c.tc : Thread nD τ).loc main_arg0) ↦{fullShare} Vc main_arg0)
          ∗ (((c.tc : Thread nD τ).loc main_v0_1) ↦{fullShare} Vc main_v0_1)
          ∗ (((c.tc : Thread nD τ).loc main_v0_0) ↦{fullShare} Vc main_v0_0)
          ∗ (((c.tc : Thread nD τ).loc main_v4) ↦{fullShare} Vc main_v4)
          ∗ (((c.tc : Thread nD τ).loc main_v5) ↦{fullShare} Vc main_v5)) := by
  unfold Pipeline.arrBufs
  rw [bigSep_eq_bigSepL_of_eq [main_arg0, main_v0_1, main_v0_0, main_v4, main_v5] (by decide) (by decide)]
  rfl

/-- ENTRY: a core's unscoped buffers at the contents V are the region's arrays at the proof data's entry contents and
    the rest: the features' buffer, which two windows read, is split into its two half shares. -/
theorem arrays_in1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c), show (cfgs 1).spec = spec1 from rfl, arrays1_eq V c, arrBufs1_eq c (V c)]
  iintro ⟨⟨HA, Hy, Hd, Hw, Ho⟩, Hrest⟩
  ihave Hy' := (pointsTo_share (PosShare.mem_left_op_right fullShare)).1 $$ Hy
  icases Hy' with ⟨Hyl, Hyr⟩
  isplitr [Hrest]
  swap; · iexact Hrest
  isplitl [HA]; · iexact HA
  isplitl [Hyl]; · iexact Hyl
  isplitl [Hyr]; · iexact Hyr
  isplitl [Hd]; · iexact Hd
  isplitl [Hw]; · iexact Hw
  iexact Ho

/-- EXIT: the region's arrays at their final contents (the inputs as entered, the output as the write-backs leave
    it) and the rest at V are the core's unscoped buffers at any contents V' that has the output there and agrees with
    V elsewhere: the two half shares of the features' buffer, at the same contents, are joined again. -/
theorem arrays_out1 (c : Dev nD) (V' : (b : Ref sig .tc) → Buf (Elt F) ((c.tc : Thread nD τ).loc b))
    (hout : V' main_v5 = (dat1 V c).arrAt 5 cfg1.N) (hrest : ∀ b, b ≠ main_v5 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V', show (cfgs 1).spec = spec1 from rfl, arrays1_eq V c, arrBufs1_eq c V',
    (dat1 V c).arrAt_in 0 rfl, (dat1 V c).arrAt_in 1 rfl, (dat1 V c).arrAt_in 2 rfl, (dat1 V c).arrAt_in 3 rfl,
    (dat1 V c).arrAt_in 4 rfl, hout, hrest main_arg0 (by decide), hrest main_v0_1 (by decide), hrest main_v0_0 (by decide),
    hrest main_v4 (by decide)]
  have hR : (Pipeline.unscopedRest (Ix := Unit) (Name := ℕ) (U := UR sig nD τ) (Lvl := ℕ) spec1 c (V c) : sProp 𝕄)
      = Pipeline.unscopedRest spec1 c V' := by
    unfold Pipeline.unscopedRest
    refine bigSep_congr fun b hb => ?_
    rw [hrest b (fun e => (Finset.mem_sdiff.mp hb).2 (Finset.mem_image.mpr ⟨5, Finset.mem_univ _, e.symm⟩))]
  rw [hR]
  iintro ⟨⟨HA, Hyl, Hyr, Hd, Hw, Ho⟩, Hrest⟩
  isplitr [Hrest]
  swap; · iexact Hrest
  isplitl [HA]; · iexact HA
  isplitl [Hyl Hyr]
  · iapply (pointsTo_share (PosShare.mem_left_op_right fullShare)).2
    isplitl [Hyl]; · iexact Hyl
    iexact Hyr
  isplitl [Hd]; · iexact Hd
  isplitl [Hw]; · iexact Hw
  iexact Ho

end Region1

/-! ## Region 2 -/

section Region2

variable (V : (c : Dev nD) → (b : Ref sig .tc) → Buf (Elt F) ((c : Thread nD τ).loc b))

/-- The region's arrays one by one, each on its buffer: the features' buffer twice, at its two half shares. -/
theorem arrays2_eq (c : Dev nD) (Fv : (w : Fin cfg2.W) → Buf (Elt F) ((cfg2.win w).arr.view.loc (c.tc : Thread nD τ))) :
    ((dat2 V c).arrays Fv : sProp 𝕄)
      = iprop((((c.tc : Thread nD τ).loc main_arg0) ↦{fullShare} Fv 0)
          ∗ (((c.tc : Thread nD τ).loc main_v5) ↦{fullShare.left} Fv 1)
          ∗ (((c.tc : Thread nD τ).loc main_v5) ↦{fullShare.right} Fv 2)
          ∗ (((c.tc : Thread nD τ).loc main_v0_0) ↦{fullShare} Fv 3)
          ∗ (((c.tc : Thread nD τ).loc main_v9) ↦{fullShare} Fv 4)
          ∗ (((c.tc : Thread nD τ).loc main_v10) ↦{fullShare} Fv 5)) := by
  unfold Dat.arrays
  rw [bigSep_W2, (arr_whole2 0).set_eq_univ, (arr_whole2 1).set_eq_univ,
    (arr_whole2 3).set_eq_univ, (arr_whole2 4).set_eq_univ, (arr_whole2 5).set_eq_univ]
  rfl

/-- The distinct buffers behind the region's arrays, one by one. -/
theorem arrBufs2_eq (c : Dev nD) (Vc : (b : Ref sig .tc) → Buf (Elt F) ((c.tc : Thread nD τ).loc b)) :
    (Pipeline.arrBufs (Ix := Unit) (Name := ℕ) (U := UR sig nD τ) (Lvl := ℕ) spec2 c Vc : sProp 𝕄)
      = iprop((((c.tc : Thread nD τ).loc main_arg0) ↦{fullShare} Vc main_arg0)
          ∗ (((c.tc : Thread nD τ).loc main_v5) ↦{fullShare} Vc main_v5)
          ∗ (((c.tc : Thread nD τ).loc main_v0_0) ↦{fullShare} Vc main_v0_0)
          ∗ (((c.tc : Thread nD τ).loc main_v9) ↦{fullShare} Vc main_v9)
          ∗ (((c.tc : Thread nD τ).loc main_v10) ↦{fullShare} Vc main_v10)) := by
  unfold Pipeline.arrBufs
  rw [bigSep_eq_bigSepL_of_eq [main_arg0, main_v5, main_v0_0, main_v9, main_v10] (by decide) (by decide)]
  rfl

/-- ENTRY: a core's unscoped buffers at the contents V are the region's arrays at the proof data's entry contents and
    the rest: the features' buffer, which two windows read, is split into its two half shares. -/
theorem arrays_in2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest spec2 c (V c)) := by
  rw [Pipeline.unscopedBufs_split₀ cfgs 2 winFacts₀2.arr_unscoped c (V c), show (cfgs 2).spec = spec2 from rfl, arrays2_eq V c, arrBufs2_eq c (V c)]
  iintro ⟨⟨HA, Hy, Hd, Hw, Ho⟩, Hrest⟩
  ihave Hy' := (pointsTo_share (PosShare.mem_left_op_right fullShare)).1 $$ Hy
  icases Hy' with ⟨Hyl, Hyr⟩
  isplitr [Hrest]
  swap; · iexact Hrest
  isplitl [HA]; · iexact HA
  isplitl [Hyl]; · iexact Hyl
  isplitl [Hyr]; · iexact Hyr
  isplitl [Hd]; · iexact Hd
  isplitl [Hw]; · iexact Hw
  iexact Ho

/-- EXIT: the region's arrays at their final contents (the inputs as entered, the output as the write-backs leave
    it) and the rest at V are the core's unscoped buffers at any contents V' that has the output there and agrees with
    V elsewhere: the two half shares of the features' buffer, at the same contents, are joined again. -/
theorem arrays_out2 (c : Dev nD) (V' : (b : Ref sig .tc) → Buf (Elt F) ((c.tc : Thread nD τ).loc b))
    (hout : V' main_v10 = (dat2 V c).arrAt 5 cfg2.N) (hrest : ∀ b, b ≠ main_v10 → V' b = V c b) :
    iprop((dat2 V c).arrays ((dat2 V c).arrAt · cfg2.N) ∗ Pipeline.unscopedRest spec2 c (V c))
      ⊢ (unscopedBufs (Ix := Unit) (Name := ℕ) (U := UR sig nD τ) (Lvl := ℕ) c V' : sProp 𝕄) := by
  rw [Pipeline.unscopedBufs_split₀ cfgs 2 winFacts₀2.arr_unscoped c V', show (cfgs 2).spec = spec2 from rfl, arrays2_eq V c, arrBufs2_eq c V',
    (dat2 V c).arrAt_in 0 rfl, (dat2 V c).arrAt_in 1 rfl, (dat2 V c).arrAt_in 2 rfl, (dat2 V c).arrAt_in 3 rfl,
    (dat2 V c).arrAt_in 4 rfl, hout, hrest main_arg0 (by decide), hrest main_v5 (by decide), hrest main_v0_0 (by decide),
    hrest main_v9 (by decide)]
  have hR : (Pipeline.unscopedRest (Ix := Unit) (Name := ℕ) (U := UR sig nD τ) (Lvl := ℕ) spec2 c (V c) : sProp 𝕄)
      = Pipeline.unscopedRest spec2 c V' := by
    unfold Pipeline.unscopedRest
    refine bigSep_congr fun b hb => ?_
    rw [hrest b (fun e => (Finset.mem_sdiff.mp hb).2 (Finset.mem_image.mpr ⟨5, Finset.mem_univ _, e.symm⟩))]
  rw [hR]
  iintro ⟨⟨HA, Hyl, Hyr, Hd, Hw, Ho⟩, Hrest⟩
  isplitr [Hrest]
  swap; · iexact Hrest
  isplitl [HA]; · iexact HA
  isplitl [Hyl Hyr]
  · iapply (pointsTo_share (PosShare.mem_left_op_right fullShare)).2
    isplitl [Hyl]; · iexact Hyl
    iexact Hyr
  isplitl [Hd]; · iexact Hd
  isplitl [Hw]; · iexact Hw
  iexact Ho

end Region2

end Cert.KernelIdeal.Hand

end
-- ==== Proof.KI.Run.lean ====
/-
  The whole program as a run: the degree pass, the first layer's stacked weights made by four host operations, the first
  layer's pass, the second layer's weights, the second layer's pass. Between two items a core holds every one of its
  unscoped buffers whole at known contents (a fold from the launch memory: a host stretch applies its operations, a pass
  replaces the arrays it writes by what its write-backs leave and touches nothing else), beside its generator register and
  nothing owed. Every weakly fair execution terminates with every unscoped buffer at the last contents of that fold; from
  there the arguments are read back unchanged and the result as the last pass's output array.
-/
import proofs.«137941_g48387101557188_cont_8to1_c_480_3_alg».proof.Proof.KI.Body0
import proofs.«137941_g48387101557188_cont_8to1_c_480_3_alg».proof.Proof.KI.Shared
import proofs.«137941_g48387101557188_cont_8to1_c_480_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 (c : Dev nD) : Valuation τ sig (Elt F) := fun b => m (c, b)
/-- The same read at the core's references (what the degree pass's proof data take). -/
abbrev Vr0 : (c : Dev nD) → (b : Ref sig .tc) → Buf (Elt F) ((c : Thread nD τ).loc b) := fun c b => W0 m c b
/-- After the degree pass: the r column and the scaled features at what its write-backs leave. -/
def W1 (c : Dev nD) : Valuation τ sig (Elt F) :=
  Function.update (Function.update (W0 m c) main_v0_0 ((dat0 (Vr0 m) c).arrAt 2 cfg0.N)) main_v0_1 ((dat0 (Vr0 m) c).arrAt 3 cfg0.N)
abbrev Vr1 : (c : Dev nD) → (b : Ref sig .tc) → Buf (Elt F) ((c : Thread nD τ).loc b) := fun c b => W1 m c b
/-- After the first layer's weights are stacked. -/
abbrev W2 (c : Dev nD) : Valuation τ sig (Elt F) := StableHlo.after hostOps1 (W1 m c)
abbrev Vr2 : (c : Dev nD) → (b : Ref sig .tc) → Buf (Elt F) ((c : Thread nD τ).loc b) := fun c b => W2 m c b
/-- After the first layer's pass: the hidden activations at what its write-backs leave. -/
def W3 (c : Dev nD) : Valuation τ sig (Elt F) := Function.update (W2 m c) main_v5 ((dat1 (Vr2 m) c).arrAt 5 cfg1.N)
abbrev Vr3 : (c : Dev nD) → (b : Ref sig .tc) → Buf (Elt F) ((c : Thread nD τ).loc b) := fun c b => W3 m c b
/-- After the second layer's weights are stacked. -/
abbrev W4 (c : Dev nD) : Valuation τ sig (Elt F) := StableHlo.after hostOps2 (W3 m c)
abbrev Vr4 : (c : Dev nD) → (b : Ref sig .tc) → Buf (Elt F) ((c : Thread nD τ).loc b) := fun c b => W4 m c b
/-- After the second layer's pass: the result at what its write-backs leave. -/
def W5 (c : Dev nD) : Valuation τ sig (Elt F) := Function.update (W4 m c) main_v10 ((dat2 (Vr4 m) c).arrAt 5 cfg2.N)
abbrev Vr5 : (c : Dev nD) → (b : Ref sig .tc) → Buf (Elt F) ((c : Thread nD τ).loc b) := fun c b => W5 m c b

/-! ### What a pass leaves unchanged -/

theorem W1_of_ne (c : Dev nD) (r : Ref sig .tc) (h0 : r ≠ main_v0_0) (h1 : r ≠ main_v0_1) : W1 m c r = W0 m c r := by
  unfold W1
  rw [Function.update_of_ne (StableHlo.devRef_ne_of_ne h1), Function.update_of_ne (StableHlo.devRef_ne_of_ne h0)]
theorem W1_v0_0 (c : Dev nD) : W1 m c main_v0_0 = (dat0 (Vr0 m) c).arrAt 2 cfg0.N := by
  unfold W1
  rw [Function.update_of_ne (StableHlo.devRef_ne_of_ne (by decide : main_v0_0 ≠ main_v0_1)), Function.update_self]
theorem W1_v0_1 (c : Dev nD) : W1 m c main_v0_1 = (dat0 (Vr0 m) c).arrAt 3 cfg0.N := by
  unfold W1; rw [Function.update_self]
theorem W3_of_ne (c : Dev nD) (r : Ref sig .tc) (h : r ≠ main_v5) : W3 m c r = W2 m c r := by
  unfold W3; rw [Function.update_of_ne (StableHlo.devRef_ne_of_ne h)]
theorem W3_v5 (c : Dev nD) : W3 m c main_v5 = (dat1 (Vr2 m) c).arrAt 5 cfg1.N := by
  unfold W3; rw [Function.update_self]
theorem W5_of_ne (c : Dev nD) (r : Ref sig .tc) (h : r ≠ main_v10) : W5 m c r = W4 m c r := by
  unfold W5; rw [Function.update_of_ne (StableHlo.devRef_ne_of_ne h)]
theorem W5_v10 (c : Dev nD) : W5 m c main_v10 = (dat2 (Vr4 m) c).arrAt 5 cfg2.N := by
  unfold W5; rw [Function.update_self]
/-- A host stretch leaves what it does not write. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

/-- The degree pass's exit: each of its arrays at what the pipeline leaves, every other buffer as entered. -/
theorem hF0 (c : Dev nD) (w : Fin cfg0.W) : (dat0 (Vr0 m) c).arrAt w cfg0.N = Vr1 m c (Pipeline.arrRef spec0 w) := by
  match w with
  | ⟨0, _⟩ => exact ((dat0 (Vr0 m) c).arrAt_in 0 rfl _).trans (W1_of_ne m c main_arg0 (by decide) (by decide)).symm
  | ⟨1, _⟩ => exact ((dat0 (Vr0 m) c).arrAt_in 1 rfl _).trans (W1_of_ne m c main_arg1 (by decide) (by decide)).symm
  | ⟨2, _⟩ => exact (W1_v0_0 m c).symm
  | ⟨3, _⟩ => exact (W1_v0_1 m c).symm
theorem hrest0 (c : Dev nD) : ∀ b, b ∉ Finset.univ.image (Pipeline.arrRef spec0) → Vr1 m c b = Vr0 m c b :=
  fun b hb => W1_of_ne m c b (fun e => hb (Finset.mem_image.mpr ⟨2, Finset.mem_univ _, e.symm⟩))
    (fun e => hb (Finset.mem_image.mpr ⟨3, Finset.mem_univ _, e.symm⟩))

/-! ### The arguments end as launched -/

theorem W5_main_arg0 (c : Dev nD) : W5 m c main_arg0 = m ((c : Thread nD τ).loc main_arg0) :=
  (W5_of_ne m c main_arg0 (by decide)).trans <| (W4_of m c main_arg0 (by decide)).trans <| (W3_of_ne m c main_arg0 (by decide)).trans <|
    (W2_of m c main_arg0 (by decide)).trans <| (W1_of_ne m c main_arg0 (by decide) (by decide)).trans rfl
theorem W5_main_arg1 (c : Dev nD) : W5 m c main_arg1 = m ((c : Thread nD τ).loc main_arg1) :=
  (W5_of_ne m c main_arg1 (by decide)).trans <| (W4_of m c main_arg1 (by decide)).trans <| (W3_of_ne m c main_arg1 (by decide)).trans <|
    (W2_of m c main_arg1 (by decide)).trans <| (W1_of_ne m c main_arg1 (by decide) (by decide)).trans rfl
theorem W5_main_arg2 (c : Dev nD) : W5 m c main_arg2 = m ((c : Thread nD τ).loc main_arg2) :=
  (W5_of_ne m c main_arg2 (by decide)).trans <| (W4_of m c main_arg2 (by decide)).trans <| (W3_of_ne m c main_arg2 (by decide)).trans <|
    (W2_of m c main_arg2 (by decide)).trans <| (W1_of_ne m c main_arg2 (by decide) (by decide)).trans rfl

/-! ## The proof data family and the thread state -/

/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
  | ⟨2, _⟩ => fun c => dat2 (Vr4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and nothing owed. -/
abbrev R (c : Dev nD) : sProp 𝕄 := iprop((∃ r, prngReg c r) ∗ ∃ W, owes (c : Thread nD τ) (0 : CellTallies nD τ sig Unit) W)
/-- A host stretch as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register. -/
abbrev Tₙ (c : Dev nD) : sProp 𝕄 := iprop(StableHlo.held (c : Thread nD τ) (Pipeline.ucRefs τ sig) (W5 m c) ∗ ∃ r, prngReg c r)

/-! ## The passes as items -/

-- `iapply` of a library lemma stated over `pin pcs a p` unifies with the pinned configuration only when unification may
-- unfold plain definitions in a metavariable's type
set_option backward.isDefEq.respectTransparency.types false in
/-- Region 0 over the thread state: entered from every unscoped buffer at its boundary's contents, left at the next
    boundary's. Its arrays split out of the unscoped buffers and put back at the exit contents; the generator register into
    the invariant and out; nothing owed; no semaphore of the kernel's own. -/
def reg0 : Pipeline.RegionSeg (pcfgs (F := F)) adm (pdats m) () defs₀ 𝒱₀ L lv 0 where
  win := launch0.win.to₀
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at its boundary's contents, left at the next
    boundary's. Its arrays split out of the unscoped buffers and put back at the exit contents; the generator register into
    the invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := arrays_in1 (Vr2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vr2 m c))
        ⊢ (unscopedBufs c (Vr3 m c) : sProp 𝕄) :=
      arrays_out1 (Vr2 m) c (Vr3 m c) (W3_v5 m c) (fun b hb => W3_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at its boundary's contents, left at the next
    boundary's. Its arrays split out of the unscoped buffers and put back at the exit contents; the generator register into
    the invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr4 m c)
  hentry c := by
    rw [Pipeline.ownSems0_none]
    have hsplit := arrays_in2 (Vr4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (Vr4 m c))
        ⊢ (unscopedBufs c (Vr5 m c) : sProp 𝕄) :=
      arrays_out2 (Vr4 m) c (Vr5 m c) (W5_v10 m c) (fun b hb => W5_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's five items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
/-- The program is the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, and the
    final memory holds every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Hand

end
-- ==== Proof.Spec.lean ====
/-
  The mathematics both programs compute, as functions of the three argument arrays on the extended reals.

  A is the 10000 × 10000 weight matrix of the graph, x the 10000 × 128 node features, W the 2 × 4 × 128 × 32 layer
  weights (layer, head, input feature, head feature). With Â = A + I, deg i = Σ_j Â i j and r i = deg i ^ (-1/2), the
  normalised matrix is Ân i j = (Â i j · r i) · r j, and one layer maps z to (Ân z) · Wl, the four heads' outputs side by
  side: column c of Wl is head c / 32, head feature c % 32. Two layers, a rectifier between them.

  The streaming form never builds Ân: with y = r · z (each row scaled by its own r),
      (Ân z) i = r i · ((A y) i + y i),
  so a layer is one pass over A. The hidden activations are only ever used scaled by r, so the first layer emits
  r · max (·) 0 directly.

  The two forms agree wherever every entry is a real number and every degree is positive (then every r i is a positive
  real and the identity is distributivity of · over finite sums of reals).
-/
import Idealize.ShloMosaic.PureOps.Ideal
import Idealize.ShloMosaic.Lib.ValueIdx

noncomputable section

namespace Cert.Spec

open Idealize.ShloMosaic Idealize.ShloMosaic.ValueIdx

abbrev SA : Shape := ⟨2, ![10000, 10000]⟩
abbrev SX : Shape := ⟨2, ![10000, 128]⟩
abbrev SW : Shape := ⟨4, ![2, 4, 128, 32]⟩

/-- The head a column of the stacked weight matrix belongs to, and its feature inside the head. -/
def hd (c : Fin 128) : Fin 4 := ⟨c.val / 32, by omega⟩
def he (c : Fin 128) : Fin 32 := ⟨c.val % 32, by omega⟩

variable (A : SA.Idx → EReal) (x : SX.Idx → EReal) (W : SW.Idx → EReal)

/-- Layer l's weights with the heads stacked along the columns. -/
def wl (l : Fin 2) (k c : Fin 128) : EReal := W (ix4 l (hd c) k (he c))

/-- The identity matrix. -/
def eye (i j : Fin 10000) : EReal := if i = j then 1 else 0

/-! ## The streaming form -/

/-- Row i's degree as a row sum of A plus one. -/
def degK (i : Fin 10000) : EReal := (∑ j : Fin 10000, A (ix2 i j)) + 1
def dK (i : Fin 10000) : EReal := Ideal.rsqrt (degK A i)
/-- The features, each row scaled by its r. -/
def y1 (i : Fin 10000) (k : Fin 128) : EReal := dK A i * x (ix2 i k)
/-- One streaming layer on row-scaled features y: r i · ((A y) i + y i), then the stacked weights. -/
def layerK (y : Fin 10000 → Fin 128 → EReal) (l : Fin 2) (i : Fin 10000) (c : Fin 128) : EReal :=
  ∑ k : Fin 128, (dK A i * ((∑ j : Fin 10000, A (ix2 i j) * y j k) + y i k)) * wl W l k c
/-- The hidden activations, rectified and already scaled by r for the next layer. -/
def y2 (i : Fin 10000) (c : Fin 128) : EReal := dK A i * max (layerK A W (y1 A x) 0 i c) 0
def outK (i : Fin 10000) (c : Fin 128) : EReal := layerK A W (y2 A x W) 1 i c

/-! ## The materialised form -/

def degR (i : Fin 10000) : EReal := ∑ j : Fin 10000, (A (ix2 i j) + eye i j)
def dR (i : Fin 10000) : EReal := Ideal.rsqrt (degR A i)
/-- The symmetrically normalised matrix. -/
def An (i j : Fin 10000) : EReal := ((A (ix2 i j) + eye i j) * dR A i) * dR A j
/-- One layer on features z: (Ân z), then the stacked weights. -/
def layerR (z : Fin 10000 → Fin 128 → EReal) (l : Fin 2) (i : Fin 10000) (c : Fin 128) : EReal :=
  ∑ k : Fin 128, (∑ j : Fin 10000, An A i j * z j k) * wl W l k c
def x1 (i : Fin 10000) (c : Fin 128) : EReal := max (layerR A W (fun i k => x (ix2 i k)) 0 i c) 0
def outR (i : Fin 10000) (c : Fin 128) : EReal := layerR A W (x1 A x W) 1 i c

end Cert.Spec

end
-- ==== Proof.SpecLayer.lean ====
/-
  One streaming layer with its four ingredients free: the matrix A, a column d of row scales, row-scaled features y and
  a weight matrix w,
      (i, c) ↦ Σ_k (d i · ((Σ_j A i j · y j k) + y i k)) · w k c.
  The specification's layer is this one at d = r and w = the stacked weights of the layer.
-/
import proofs.«137941_g48387101557188_cont_8to1_c_480_3_alg».proof.Proof.Spec

noncomputable section

namespace Cert.Spec

open Idealize.ShloMosaic Idealize.ShloMosaic.ValueIdx

/-- One streaming layer over free ingredients. -/
def layerG (A : SA.Idx → EReal) (d : Fin 10000 → EReal) (y : Fin 10000 → Fin 128 → EReal) (w : Fin 128 → Fin 128 → EReal)
    (i : Fin 10000) (c : Fin 128) : EReal :=
  ∑ k : Fin 128, (d i * ((∑ j : Fin 10000, A (ix2 i j) * y j k) + y i k)) * w k c

theorem layerK_eq_layerG (A : SA.Idx → EReal) (W : SW.Idx → EReal) (y : Fin 10000 → Fin 128 → EReal) (l : Fin 2) (i : Fin 10000) (c : Fin 128) :
    layerK A W y l i c = layerG A (dK A) y (wl W l) i c := rfl

end Cert.Spec

end
-- ==== Proof.KI.Val0.lean ====
/-
  The first pass (the degree kernel), read as values on the extended reals: once the region has run, its two output
  arrays hold, row by row, r i = (sum_j A i j + 1)^(-1/2) and the features scaled by it, r i * x i k. Each grid point
  handles a block of 400 rows; row i lies in block i / 400, the blocks of an output tile its array, and what a point
  writes back is its block of one function of the arrays the region was entered with.
-/
import proofs.«137941_g48387101557188_cont_8to1_c_480_3_alg».proof.Proof.KI.Body0
import proofs.«137941_g48387101557188_cont_8to1_c_480_3_alg».proof.Proof.SpecLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

-- the core's buffer contents when the region is entered
variable (V : (c : Dev nD) → (b : Ref sig .tc) → Buf (Elt Ideal) ((c : Thread nD τ).loc b))

/-! ## Two layout operations of a column kept as a matrix, read at coordinates -/

/-- A vector of length a viewed as an a x 1 column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column broadcast along the rows to a x b reads, at (p, k), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The word 0x3F800000 is the real number one. -/
theorem one_word : Ideal.ofBits .f32 0x3F800000#32 = 1 := by
  simp [Ideal.ofBits, Ideal.ieee, -EReal.coe_mul]; norm_num

/-- The lane sum of a 400 x 10000 block at row p is the sum of the row's entries. -/
theorem rowsum_apply (x0 : FVec Ideal S400x10000 .f32) (hφ : FKind.Formats .f32)
    (hacc : (0x00000000#32 : BitVec 32) = 0x00000000#32) (p : Fin 400) :
    multiReduction (F := Ideal) .add [1] S400 x0 0x00000000#32 reduces_S400x10000_S400 hφ hacc (ix1 p)
      = ∑ j : Fin 10000, x0 (ix2 p j) := by
  refine (Ideal.multiReduction_add_single x0 0x00000000#32 reduces_S400x10000_S400 hφ hacc (ix1 p)).trans ?_
  show ∑ k : Fin 10000, x0 (reduces_S400x10000_S400.lift (ix1 p) k) = _
  refine Finset.sum_congr rfl fun k _ => congrArg x0 ?_
  funext a
  apply Fin.ext
  match a with
  | ⟨0, _⟩ => rfl
  | ⟨1, _⟩ => rfl

/-- The r column of a block at row p: the inverse square root of the row sum plus one. -/
theorem pay1_apply (x0 : FVec Ideal S400x10000 .f32) (p : Fin 400) (u : Fin 1) :
    k0_pay1 (F := Ideal) x0 (ix2 p u) = Ideal.rsqrt ((∑ j : Fin 10000, x0 (ix2 p j)) + 1) := by
  unfold k0_pay1
  show Ideal.rsqrt (shapeCast S400x1 _ shapeCasts_S400_S400x1 (ix2 p u) + Ideal.ofBits .f32 0x3F800000#32) = _
  rw [shapeCast_a_a1_apply, rowsum_apply, one_word]

/-- The scaled features of a block at (p, k): the row's r times the feature. -/
theorem pay2_apply (x0 : FVec Ideal S400x10000 .f32) (x1 : FVec Ideal S400x128 .f32) (p : Fin 400) (k : Fin 128) :
    k0_pay2 (F := Ideal) x0 x1 (ix2 p k) = Ideal.rsqrt ((∑ j : Fin 10000, x0 (ix2 p j)) + 1) * x1 (ix2 p k) := by
  unfold k0_pay2
  show broadcastTo S400x128 (k0_pay1 (F := Ideal) x0) broadcasts_S400x1_S400x128 (ix2 p k) * x1 (ix2 p k) = _
  rw [broadcastTo_a1_ab_apply, pay1_apply]

/-! ## The arrays, the block indices, and the blocks as rows of the arrays -/

/-- The matrix A as the region finds it. -/
abbrev aArr (c : Dev nD) : FVec Ideal S10000x10000 .f32 := V c main_arg0
/-- The features as the region finds them. -/
abbrev xArr (c : Dev nD) : FVec Ideal S10000x128 .f32 := V c main_arg1

/-- What the r column ends holding: row i's inverse square root of its degree. -/
def rCol (c : Dev nD) : FVec Ideal S10000x1 .f32 := fun i => Cert.Spec.dK (aArr V c) (i 0)
/-- What the scaled features end holding: row i's r times the feature. -/
def yMat (c : Dev nD) : FVec Ideal S10000x128 .f32 := fun i => Cert.Spec.dK (aArr V c) (i 0) * xArr V c (ix2 (i 0) (i 1))

theorem zero_offsets : (![0, 0] : Fin 2 → Nat) = fun _ => 0 := funext fun a => by fin_cases a <;> rfl

/-- At point t every window's block is block row t of its array, in block column 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of A is row 400 t + p of A. -/
theorem blkA_apply (c : Dev nD) (t : Fin cfg0.N) (p : Fin 400) (j : Fin 10000) (r : Fin 10000) (hr : r.val = t.val * 400 + p.val) :
    (iblk0 V c 0 t : Vec Ideal S400x10000 .f32) (ix2 p j) = aArr V c (ix2 r j) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 400 + 1 * p.val = r.val; rw [e0, hr]; omega
  | ⟨1, _⟩ => show win0_0.index t (1 : Fin 2) * 10000 + 1 * j.val = j.val; rw [e1]; omega

/-- Row p of point t's block of the features is row 400 t + p of the features. -/
theorem blkX_apply (c : Dev nD) (t : Fin cfg0.N) (p : Fin 400) (k : Fin 128) (r : Fin 10000) (hr : r.val = t.val * 400 + p.val) :
    (iblk0 V c 1 t : Vec Ideal S400x128 .f32) (ix2 p k) = xArr V c (ix2 r k) := by
  obtain ⟨-, -, e0, e1, -⟩ := index_facts t
  unfold iblk0
  rw [View.read_apply]
  show V c main_arg1 _ = V c main_arg1 _
  congr 1
  funext a
  apply Fin.ext
  match a with
  | ⟨0, _⟩ => show win0_1.index t (0 : Fin 2) * 400 + 1 * p.val = r.val; rw [e0, hr]; omega
  | ⟨1, _⟩ => show win0_1.index t (1 : Fin 2) * 128 + 1 * k.val = k.val; rw [e1]; omega

/-! ## What a point writes back -/

/-- The r column of point t's block at row p is r of row 400 t + p of A: the block's row sum is the row's. -/
theorem pay1_blk (c : Dev nD) (t : Fin cfg0.N) (p : Fin 400) (u : Fin 1) (r : Fin 10000) (hr : r.val = t.val * 400 + p.val) :
    k0_pay1 (F := Ideal) (iblk0 V c 0 t) (ix2 p u) = Cert.Spec.dK (aArr V c) r := by
  refine (pay1_apply (iblk0 V c 0 t) p u).trans ?_
  unfold Cert.Spec.dK Cert.Spec.degK
  exact congrArg (fun s => Ideal.rsqrt (s + 1)) (Finset.sum_congr rfl fun j _ => blkA_apply V c t p j r hr)

/-- The scaled features of point t's block at (p, k) are r of row 400 t + p times that row's feature k. -/
theorem pay2_blk (c : Dev nD) (t : Fin cfg0.N) (p : Fin 400) (k : Fin 128) (r : Fin 10000) (hr : r.val = t.val * 400 + p.val) :
    k0_pay2 (F := Ideal) (iblk0 V c 0 t) (iblk0 V c 1 t) (ix2 p k) = Cert.Spec.dK (aArr V c) r * xArr V c (ix2 r k) := by
  refine (pay2_apply (iblk0 V c 0 t) (iblk0 V c 1 t) p k).trans ?_
  rw [blkX_apply V c t p k r hr]
  unfold Cert.Spec.dK Cert.Spec.degK
  exact congrArg (fun s => Ideal.rsqrt (s + 1) * xArr V c (ix2 r k)) (Finset.sum_congr rfl fun j _ => blkA_apply V c t p j r hr)

/-- Point t writes back, into the r column, its block of the column of all rows' r. -/
theorem flushed_r (c : Dev nD) (t : Fin cfg0.N) :
    (dat0 (F := Ideal) V c).flushed 2 t = ((cfg0.win 2).blk t).view.read (Elt Ideal) (rCol V c) := by
  show (cfg0.win 2).cut (grid0.coords t) ((dat0 (F := Ideal) V c).after 2 t) = _
  rw [after0_2]
  unfold out0_2
  rw [View.canon_unit_zero zero_offsets]
  simp only [View.ld_unit_zero (S := S400x10000) zero_offsets]
  obtain ⟨-, -, -, -, e0, e1, -⟩ := index_facts t
  funext y
  obtain ⟨p, u, rfl⟩ : ∃ (p : Fin 400) (u : Fin 1), y = ix2 p u := ⟨y 0, y 1, eq_ix2 (n0 := 400) (n1 := 1) y⟩
  show k0_pay1 (F := Ideal) (iblk0 V c 0 t) (ix2 p u) = Cert.Spec.dK (aArr V c) ((((cfg0.win 2).blk t).view.emb (ix2 p u)) 0)
  refine pay1_blk V c t p u _ ?_
  show win0_2.index t (0 : Fin 2) * 400 + 1 * p.val = t.val * 400 + p.val
  rw [e0]; omega

/-- Point t writes back, into the scaled features, its block of the matrix of all rows' scaled features. -/
theorem flushed_y (c : Dev nD) (t : Fin cfg0.N) :
    (dat0 (F := Ideal) V c).flushed 3 t = ((cfg0.win 3).blk t).view.read (Elt Ideal) (yMat V c) := by
  show (cfg0.win 3).cut (grid0.coords t) ((dat0 (F := Ideal) V c).after 3 t) = _
  rw [after0_3]
  unfold out0_3
  rw [View.canon_unit_zero zero_offsets]
  simp only [View.ld_unit_zero (S := S400x10000) zero_offsets, View.ld_unit_zero (S := S400x128) zero_offsets]
  obtain ⟨-, -, -, -, -, -, e0, e1⟩ := index_facts t
  funext y
  obtain ⟨p, k, rfl⟩ : ∃ (p : Fin 400) (k : Fin 128), y = ix2 p k := ⟨y 0, y 1, eq_ix2 (n0 := 400) (n1 := 128) y⟩
  have hp : t.val * 400 + p.val < 10000 := by have := t.isLt; have hN : cfg0.N = 25 := N_0; omega
  show k0_pay2 (F := Ideal) (iblk0 V c 0 t) (iblk0 V c 1 t) (ix2 p k) = yMat V c (((cfg0.win 3).blk t).view.emb (ix2 p k))
  have hemb : ((cfg0.win 3).blk t).view.emb (ix2 p k) = (ix2 (⟨t.val * 400 + p.val, hp⟩ : Fin 10000) k : S10000x128.Idx) := by
    funext a
    apply Fin.ext
    match a with
    | ⟨0, _⟩ => show win0_3.index t (0 : Fin 2) * 400 + 1 * p.val = t.val * 400 + p.val; rw [e0]; omega
    | ⟨1, _⟩ => show win0_3.index t (1 : Fin 2) * 128 + 1 * k.val = k.val; rw [e1]; omega
  rw [hemb]
  exact pay2_blk V c t p k ⟨t.val * 400 + p.val, hp⟩ rfl

/-! ## The blocks tile the arrays -/

/-- An index of the r column is in point t's block iff each coordinate is in the block's range on its axis. -/
theorem mem_blk_r (t : Fin cfg0.N) (i : S10000x1.Idx) :
    i ∈ ((cfg0.win 2).blk t).view.set ↔ ∀ a : Fin 2, win0_2.index t a * S400x1.size a ≤ (i a).val ∧ (i a).val < win0_2.index t a * S400x1.size a + S400x1.size a := by
  show i ∈ ((View.whole main_v0_0).slice (win0_2.rect t)).set ↔ _
  rw [View.set_slice_whole, Rect.mem_set_unit]
  exact Iff.rfl

/-- The same for the scaled features. -/
theorem mem_blk_y (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0_1).slice (win0_3.rect t)).set ↔ _
  rw [View.set_slice_whole, Rect.mem_set_unit]
  exact Iff.rfl

/-- Row i of the r column lies in the block of point i / 400. -/
theorem cover_r (i : S10000x1.Idx) : ∃ t : Fin cfg0.N, (cfg0.win 2).flush t = true ∧ i ∈ ((cfg0.win 2).blk t).view.set := by
  have hi0 : (i 0).val < 10000 := (i 0).isLt
  have hi1 : (i 1).val < 1 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, e0, e1, -⟩ := index_facts t
  refine ⟨t, flush0_2 t, ?_⟩
  rw [mem_blk_r]
  intro a
  match a with
  | ⟨0, _⟩ => show win0_2.index t (0 : Fin 2) * 400 ≤ (i 0).val ∧ (i 0).val < win0_2.index t (0 : Fin 2) * 400 + 400; rw [e0]; omega
  | ⟨1, _⟩ => show win0_2.index t (1 : Fin 2) * 1 ≤ (i 1).val ∧ (i 1).val < win0_2.index t (1 : Fin 2) * 1 + 1; rw [e1]; omega

/-- Row i of the scaled features lies in the block of point i / 400. -/
theorem cover_y (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, e0, e1⟩ := index_facts t
  refine ⟨t, flush0_3 t, ?_⟩
  rw [mem_blk_y]
  intro a
  match a with
  | ⟨0, _⟩ => show win0_3.index t (0 : Fin 2) * 400 ≤ (i 0).val ∧ (i 0).val < win0_3.index t (0 : Fin 2) * 400 + 400; rw [e0]; omega
  | ⟨1, _⟩ => show win0_3.index t (1 : Fin 2) * 128 ≤ (i 1).val ∧ (i 1).val < win0_3.index t (1 : Fin 2) * 128 + 128; rw [e1]; omega

/-! ## The two output arrays when the region has run -/

/-- The r column ends holding every row's r. -/
theorem final_r (c : Dev nD) : (dat0 (F := Ideal) V c).arrAt 2 cfg0.N = rCol V c :=
  (dat0 (F := Ideal) V c).arrAt_eq_of_cover 2 (rCol V c) (fun t _ => flushed_r V c t) cover_r

/-- The scaled features end holding every row's features times its r. -/
theorem final_y (c : Dev nD) : (dat0 (F := Ideal) V c).arrAt 3 cfg0.N = yMat V c :=
  (dat0 (F := Ideal) V c).arrAt_eq_of_cover 3 (yMat V c) (fun t _ => flushed_y V c t) cover_y

/-- Row i of the r column: the inverse square root of row i's degree. -/
theorem arr0_2 (c : Dev nD) (i : Fin 10000) :
    (dat0 (F := Ideal) V c).arrAt 2 cfg0.N (ix2 i (0 : Fin 1)) = Cert.Spec.dK (V c main_arg0) i :=
  congrFun (final_r V c) (ix2 i (0 : Fin 1))

/-- Entry (i, k) of the scaled features: row i's r times feature k of row i. -/
theorem arr0_3 (c : Dev nD) (i : Fin 10000) (k : Fin 128) :
    (dat0 (F := Ideal) V c).arrAt 3 cfg0.N (ix2 i k) = Cert.Spec.dK (V c main_arg0) i * V c main_arg1 (ix2 i k) :=
  congrFun (final_y V c) (ix2 i k)

end Cert.KernelIdeal.HandVal0

end
-- ==== Proof.KI.Val1.lean ====
/-
  The first layer's pass, read as a value. When the region has run over its 25 blocks of 400 rows, its output array holds,
  at row i and column c,
      r i · max (Σ_k (r i · ((Σ_j A i j · y j k) + y i k)) · w k c) 0,
  a function of the four arrays the region was entered with: the matrix A, the row-scaled features y, the column r and the
  stacked weights w. The body's payload is read at an index (a column broadcast over the lanes, two products into a zero
  accumulator, the rectifier against the zero word); each window's block is read where it lies in its array (the blocks of
  A, of y's rows, of r and of the output move with the point along the rows, all of y and the weights stay); and the 25
  output blocks tile the array, row i lying in block i / 400.
-/
import proofs.«137941_g48387101557188_cont_8to1_c_480_3_alg».proof.Proof.KI.Body1
import proofs.«137941_g48387101557188_cont_8to1_c_480_3_alg».proof.Proof.SpecLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

/-! ## A column broadcast over the lanes -/

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an index -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The rows of A against all of y, into a zero accumulator: entry (p, k) is the sum over the 10000 columns. -/
theorem aggregate_apply (a : FVec Ideal S400x10000 .f32) (y : FVec Ideal S10000x128 .f32) (p : Fin 400) (k : Fin 128) :
    matmul dot_S400x10000_S10000x128_S400x128_1_0_0_1_n_n none a y (constant (F := Ideal) S400x128 .f32 0x00000000#32) (ix2 p k)
      = ∑ j : Fin 10000, a (ix2 p j) * y (ix2 j k) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun j _ => ?_
  have hk := ValueIdx.contrEquiv1_symm_val dot_S400x10000_S10000x128_S400x128_1_0_0_1_n_n 10000 rfl rfl j
  have el : dot_S400x10000_S10000x128_S400x128_1_0_0_1_n_n.lhsIdx (ix2 p k) ((ValueIdx.contrEquiv1 dot_S400x10000_S10000x128_S400x128_1_0_0_1_n_n 10000 rfl rfl).symm j) = ix2 p j := funext fun ax => Fin.ext (by
    match ax with
    | ⟨0, _⟩ => exact lhsA_0 _ _
    | ⟨1, _⟩ => exact (lhsA_1 _ _).trans hk)
  have er : dot_S400x10000_S10000x128_S400x128_1_0_0_1_n_n.rhsIdx (ix2 p k) ((ValueIdx.contrEquiv1 dot_S400x10000_S10000x128_S400x128_1_0_0_1_n_n 10000 rfl rfl).symm j) = ix2 j k := funext fun ax => Fin.ext (by
    match ax with
    | ⟨0, _⟩ => exact (rhsA_0 _ _).trans hk
    | ⟨1, _⟩ => exact rhsA_1 _ _)
  rw [el, er]

theorem lhsW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The aggregated rows against the stacked weights, into a zero accumulator: entry (p, q) is the sum over the 128 features. -/
theorem project_apply (g : FVec Ideal S400x128 .f32) (w : FVec Ideal S128x128 .f32) (p : Fin 400) (q : Fin 128) :
    matmul dot_S400x128_S128x128_S400x128_1_0_0_1_n_n none g w (constant (F := Ideal) S400x128 .f32 0x00000000#32) (ix2 p q)
      = ∑ k : Fin 128, g (ix2 p k) * w (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun ax => Fin.ext (by
    match ax with
    | ⟨0, _⟩ => exact lhsW_0 _ _
    | ⟨1, _⟩ => exact (lhsW_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun ax => Fin.ext (by
    match ax with
    | ⟨0, _⟩ => exact (rhsW_0 _ _).trans hk
    | ⟨1, _⟩ => exact rhsW_1 _ _)
  rw [el, er]

/-! ## The body's payload at an index -/

/-- Entry (p, q) of what the body stores: r p · max (Σ_k (r p · ((Σ_j A p j · y j k) + yb p k)) · w k q) 0. -/
theorem pay1_apply (r : FVec Ideal S400x1 .f32) (a : FVec Ideal S400x10000 .f32) (y : FVec Ideal S10000x128 .f32) (yb : FVec Ideal S400x128 .f32)
    (w : FVec Ideal S128x128 .f32) (p : Fin 400) (q : Fin 128) :
    k1_pay1 (F := Ideal) r a y yb w (ix2 p q)
      = r (ix2 p (0 : Fin 1)) * max (∑ k : Fin 128, (r (ix2 p (0 : Fin 1)) * ((∑ j : Fin 10000, a (ix2 p j) * y (ix2 j k)) + yb (ix2 p k))) * w (ix2 k q)) 0 := by
  unfold k1_pay1
  simp only [shapeCast_self]
  rw [mulf_apply, maximumf_apply, broadcast_apply, broadcastTo_a1_ab_apply, project_apply]
  simp only [mulf_apply, addf_apply, broadcastTo_a1_ab_apply, aggregate_apply]
  rw [show (FloatOps.ofBits FTy.f32 0x00000000#32 : Ideal .f32) = 0 from Ideal.ofBits_zero_f32]

/-! ## What the body leaves is its payload of the blocks -/

theorem zero_offsets : (![0, 0] : Fin 2 → Nat) = fun _ => 0 := funext fun a => by
  match a with
  | ⟨0, _⟩ => rfl
  | ⟨1, _⟩ => rfl

/-- The one store through the whole buffer leaves its payload, and each load through a whole buffer reads the block. -/
theorem out1_5_eq (x0 : Vec Ideal S400x10000 .f32) (x1 : Vec Ideal S10000x128 .f32) (x2 : Vec Ideal S400x128 .f32) (x3 : Vec Ideal S400x1 .f32)
    (x4 : Vec Ideal S128x128 .f32) : out1_5 x0 x1 x2 x3 x4 = k1_pay1 x3 x0 x1 x2 x4 := by
  unfold out1_5
  rw [View.canon_unit_zero zero_offsets]
  simp only [View.ld_unit_zero (S := S400x10000) zero_offsets, View.ld_unit_zero (S := S10000x128) zero_offsets,
    View.ld_unit_zero (S := S400x128) zero_offsets, View.ld_unit_zero (S := S400x1) zero_offsets,
    View.ld_unit_zero (S := S128x128) zero_offsets]

/-! ## The arrays the region is entered with, and the array it leaves -/

-- the core's buffer contents when the region is entered
variable (V : (c : Dev nD) → (b : Ref sig .tc) → Buf (Elt Ideal) ((c : Thread nD τ).loc b))

/-- The matrix A. -/
abbrev aArr (c : Dev nD) : FVec Ideal S10000x10000 .f32 := V c main_arg0
/-- The row-scaled features y. -/
abbrev yArr (c : Dev nD) : FVec Ideal S10000x128 .f32 := V c main_v0_1
/-- The column r. -/
abbrev rArr (c : Dev nD) : FVec Ideal S10000x1 .f32 := V c main_v0_0
/-- The stacked weights. -/
abbrev wArr (c : Dev nD) : FVec Ideal S128x128 .f32 := V c main_v4

/-- Row i, column cc of the hidden activations, rectified and scaled by r: r i · max (layer i cc) 0. -/
def hiddenAt (c : Dev nD) (i : Fin 10000) (cc : Fin 128) : EReal :=
  rArr V c (ix2 i (0 : Fin 1)) * max (Cert.Spec.layerG (aArr V c) (fun i => rArr V c (ix2 i (0 : Fin 1))) (fun j k => yArr V c (ix2 j k))
    (fun k c' => wArr V c (ix2 k c')) i cc) 0

/-- The whole output array, index by index. -/
def hidden (c : Dev nD) : FVec Ideal S10000x128 .f32 := fun x => hiddenAt V c ⟨(x 0).val, idx2_lt0 x⟩ ⟨(x 1).val, idx2_lt1 x⟩

theorem hidden_apply (c : Dev nD) (x : S10000x128.Idx) (i : Fin 10000) (q : Fin 128) (h0 : (x 0).val = i.val) (h1 : (x 1).val = q.val) :
    hidden V c x = hiddenAt V c i q := by
  unfold hidden
  rw [show (⟨(x 0).val, idx2_lt0 x⟩ : Fin 10000) = i from Fin.ext h0, show (⟨(x 1).val, idx2_lt1 x⟩ : Fin 128) = q from Fin.ext h1]

/-! ## Where each window's block lies in its array -/

/-- The printed index maps, decided over the 25 grid points: the blocks of A, of y's rows, of r and of the output move with
    the point along the rows; all of y and the weights stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of A is row 400 t + p of A. -/
theorem aBlock_apply (c : Dev nD) (t : Fin cfg1.N) (p : Fin 400) (i : Fin 10000) (hi : i.val = t.val * 400 + p.val) (j : Fin 10000) :
    (iblk1 V c 0 t : FVec Ideal S400x10000 .f32) (ix2 p j) = aArr V c (ix2 i j) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 400 + 1 * p.val = i.val; omega
  | ⟨1, _⟩ => show win1_0.index t (1 : Fin 2) * 10000 + 1 * j.val = j.val; omega

/-- The whole-array window holds all of y at every point. -/
theorem yWhole_apply (c : Dev nD) (t : Fin cfg1.N) (j : Fin 10000) (k : Fin 128) :
    (iblk1 V c 1 t : FVec Ideal S10000x128 .f32) (ix2 j k) = yArr V c (ix2 j k) := by
  obtain ⟨-, -, e0, e1, -⟩ := idx_facts1 t
  unfold iblk1
  rw [View.read_apply]
  show V c main_v0_1 _ = V c main_v0_1 _
  congr 1
  funext a
  apply Fin.ext
  match a with
  | ⟨0, _⟩ => show win1_1.index t (0 : Fin 2) * 10000 + 1 * j.val = j.val; omega
  | ⟨1, _⟩ => show win1_1.index t (1 : Fin 2) * 128 + 1 * k.val = k.val; omega

/-- Row p of point t's block of y is row 400 t + p of y. -/
theorem yBlock_apply (c : Dev nD) (t : Fin cfg1.N) (p : Fin 400) (i : Fin 10000) (hi : i.val = t.val * 400 + p.val) (k : Fin 128) :
    (iblk1 V c 2 t : FVec Ideal S400x128 .f32) (ix2 p k) = yArr V c (ix2 i k) := by
  obtain ⟨-, -, -, -, e0, e1, -⟩ := idx_facts1 t
  unfold iblk1
  rw [View.read_apply]
  show V c main_v0_1 _ = V c main_v0_1 _
  congr 1
  funext a
  apply Fin.ext
  match a with
  | ⟨0, _⟩ => show win1_2.index t (0 : Fin 2) * 400 + 1 * p.val = i.val; omega
  | ⟨1, _⟩ => show win1_2.index t (1 : Fin 2) * 128 + 1 * k.val = k.val; omega

/-- Row p of point t's block of r is row 400 t + p of r. -/
theorem rBlock_apply (c : Dev nD) (t : Fin cfg1.N) (p : Fin 400) (i : Fin 10000) (hi : i.val = t.val * 400 + p.val) :
    (iblk1 V c 3 t : FVec Ideal S400x1 .f32) (ix2 p (0 : Fin 1)) = rArr V c (ix2 i (0 : Fin 1)) := by
  obtain ⟨-, -, -, -, -, -, e0, e1, -⟩ := idx_facts1 t
  unfold iblk1
  rw [View.read_apply]
  show V c main_v0_0 _ = V c main_v0_0 _
  congr 1
  funext a
  apply Fin.ext
  match a with
  | ⟨0, _⟩ => show win1_3.index t (0 : Fin 2) * 400 + 1 * p.val = i.val; omega
  | ⟨1, _⟩ => show win1_3.index t (1 : Fin 2) * 1 + 1 * 0 = 0; omega

/-- The weights' window holds all of them at every point. -/
theorem wWhole_apply (c : Dev nD) (t : Fin cfg1.N) (k q : Fin 128) :
    (iblk1 V c 4 t : FVec Ideal S128x128 .f32) (ix2 k q) = wArr V c (ix2 k q) := by
  obtain ⟨-, -, -, -, -, -, -, -, e0, e1, -⟩ := idx_facts1 t
  unfold iblk1
  rw [View.read_apply]
  show V c main_v4 _ = V c main_v4 _
  congr 1
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-! ## What a point writes back -/

/-- Entry (p, q) of the payload of point t's blocks is entry (400 t + p, q) of the output array. -/
theorem block_apply (c : Dev nD) (t : Fin cfg1.N) (p : Fin 400) (q : Fin 128) (i : Fin 10000) (hi : i.val = t.val * 400 + p.val) :
    k1_pay1 (F := Ideal) (iblk1 V c 3 t) (iblk1 V c 0 t) (iblk1 V c 1 t) (iblk1 V c 2 t) (iblk1 V c 4 t) (ix2 p q) = hiddenAt V c i q := by
  refine (pay1_apply (iblk1 V c 3 t) (iblk1 V c 0 t) (iblk1 V c 1 t) (iblk1 V c 2 t) (iblk1 V c 4 t) p q).trans ?_
  unfold hiddenAt Cert.Spec.layerG
  simp only [rBlock_apply V c t p i hi, aBlock_apply V c t p i hi, yWhole_apply V c t, yBlock_apply V c t p i hi, wWhole_apply V c t]

/-- What point t writes back is block t of the output array. -/
theorem flushed1_5_eq (c : Dev nD) (t : Fin cfg1.N) :
    (dat1 V c).flushed 5 t = ((cfg1.win 5).blk t).view.read (Elt Ideal) (hidden V c) := by
  show (cfg1.win 5).cut (grid1.coords t) ((dat1 V c).after 5 t) = _
  rw [after1_5, out1_5_eq]
  funext j
  have hp : (j 0).val < 400 := (j 0).isLt
  have hq : (j 1).val < 128 := (j 1).isLt
  have ht : t.val < 25 := by have := t.isLt; have hN : cfg1.N = 25 := N_1; omega
  obtain ⟨-, -, -, -, -, -, -, -, -, -, e0, e1⟩ := idx_facts1 t
  have hx : (cfg1.win 5).xinj (grid1.coords t) j = ix2 (⟨(j 0).val, hp⟩ : Fin 400) (⟨(j 1).val, hq⟩ : Fin 128) := funext fun a => by
    match a with
    | ⟨0, _⟩ => rfl
    | ⟨1, _⟩ => rfl
  show k1_pay1 (F := Ideal) (iblk1 V c 3 t) (iblk1 V c 0 t) (iblk1 V c 1 t) (iblk1 V c 2 t) (iblk1 V c 4 t) ((cfg1.win 5).xinj (grid1.coords t) j)
    = hidden V c (((cfg1.win 5).blk t).view.emb j)
  rw [hx]
  refine (block_apply V c t ⟨(j 0).val, hp⟩ ⟨(j 1).val, hq⟩ ⟨t.val * 400 + (j 0).val, by omega⟩ rfl).trans
    (hidden_apply V c (((cfg1.win 5).blk t).view.emb j) ⟨t.val * 400 + (j 0).val, by omega⟩ ⟨(j 1).val, hq⟩ ?_ ?_).symm
  · show win1_5.index t (0 : Fin 2) * 400 + 1 * (j 0).val = t.val * 400 + (j 0).val; omega
  · show win1_5.index t (1 : Fin 2) * 128 + 1 * (j 1).val = (j 1).val; omega

/-! ## The blocks cover the array -/

/-- An index of the array is in point t's block iff each coordinate is in the block's range on its axis. -/
theorem mem_blk1_5 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v5).slice (win1_5.rect t)).set ↔ _
  rw [View.set_slice_whole, Rect.mem_set_unit]
  exact Iff.rfl

/-- Row r lies in the block of point r / 400, and every point writes its block back. -/
theorem covered1_5 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, -, -, e0, e1⟩ := idx_facts1 t
  refine ⟨t, flush1_5 t, ?_⟩
  rw [mem_blk1_5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 128 ≤ (i 1).val ∧ (i 1).val < win1_5.index t (1 : Fin 2) * 128 + 128; omega

/-! ## The array the region leaves -/

/-- When the region has run its output array is the hidden activations, rectified and scaled by r. -/
theorem arr1_5_eq (c : Dev nD) : (dat1 V c).arrAt 5 cfg1.N = hidden V c :=
  (dat1 V c).arrAt_eq_of_cover 5 (hidden V c) (fun t _ => flushed1_5_eq V c t) covered1_5

/-- Read at row i, column cc. -/
theorem arr1_5 (c : Dev nD) (i : Fin 10000) (cc : Fin 128) :
    (dat1 (F := Ideal) V c).arrAt 5 cfg1.N (ix2 i cc)
      = @HMul.hMul EReal EReal EReal _ (V c main_v0_0 (ix2 i (0 : Fin 1))) (max (Cert.Spec.layerG (V c main_arg0) (fun i => V c main_v0_0 (ix2 i (0 : Fin 1))) (fun j k => V c main_v0_1 (ix2 j k))
          (fun k c' => V c main_v4 (ix2 k c')) i cc) 0) := by
  rw [arr1_5_eq]
  rfl

end Cert.KernelIdeal.HandVal1

end
-- ==== Proof.KI.Val2.lean ====
/-
  What the second layer's pass leaves in its output array, read at the ideal values.

  At a block of 400 rows the body computes agg = r · (A_blk · y + y_blk), the r column spread along the 128 lanes, and
  stores agg · w: two contractions into a zero accumulator, over the 10000 columns of A and over the 128 features.
  Read at row p and column q of the block this is
      Σ_k (r p · ((Σ_j A p j · y j k) + y p k)) · w k q,
  and row p of block t is row 400 t + p of the arrays, so what point t writes back is its rows of ONE function of
  the arrays the region was entered with: the streaming layer over A, the r column, the row-scaled features y and the
  stacked weights w. The 25 blocks tile the 10000 rows (row r lies in block r / 400), so the array ends holding that layer.
-/
import proofs.«137941_g48387101557188_cont_8to1_c_480_3_alg».proof.Proof.KI.Body2
import proofs.«137941_g48387101557188_cont_8to1_c_480_3_alg».proof.Proof.SpecLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

-- the core's buffer contents when the region is entered, at the ideal values
variable (V : (c : Dev nD) → (b : Ref sig .tc) → Buf (Elt Ideal) ((c : Thread nD τ).loc b))

/-! ## The body's operations read at an index -/

/-- A column [a, 1] spread along b lanes reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The first contraction: rows of A against all of y, over the 10000 columns -/

theorem lhsAy_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsAy_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsAy_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsAy_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A block of 400 rows of A times y, into a zero accumulator, at (p, q): Σ_j A p j · y j q. -/
theorem matmulAy_apply (x : FVec Ideal S400x10000 .f32) (y : FVec Ideal S10000x128 .f32) (p : Fin 400) (q : Fin 128) :
    matmul dot_S400x10000_S10000x128_S400x128_1_0_0_1_n_n none x y (constant (F := Ideal) S400x128 .f32 0x00000000#32) (ix2 p q)
      = ∑ j : Fin 10000, x (ix2 p j) * y (ix2 j q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhsAy_0 _ _
    | ⟨1, _⟩ => exact (lhsAy_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhsAy_0 _ _).trans hk
    | ⟨1, _⟩ => exact rhsAy_1 _ _)
  rw [el, er]

/-! ### The second contraction: the aggregated rows against the weights, over the 128 features -/

theorem lhsGw_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsGw_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsGw_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsGw_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- 400 aggregated rows times the weights, into a zero accumulator, at (p, q): Σ_k g p k · w k q. -/
theorem matmulGw_apply (g : FVec Ideal S400x128 .f32) (w : FVec Ideal S128x128 .f32) (p : Fin 400) (q : Fin 128) :
    matmul dot_S400x128_S128x128_S400x128_1_0_0_1_n_n none g w (constant (F := Ideal) S400x128 .f32 0x00000000#32) (ix2 p q)
      = ∑ k : Fin 128, g (ix2 p k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhsGw_0 _ _
    | ⟨1, _⟩ => exact (lhsGw_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhsGw_0 _ _).trans hk
    | ⟨1, _⟩ => exact rhsGw_1 _ _)
  rw [el, er]

/-! ### The payload -/

/-- The body's stored value at row p and column q of the block, from the five loaded blocks (the r column, the rows of
    A, all of y, the block's rows of y, the weights): Σ_k (r p · ((Σ_j A p j · y j k) + y p k)) · w k q. -/
theorem pay_apply (xd : Vec Ideal S400x1 .f32) (xa : Vec Ideal S400x10000 .f32) (xy : Vec Ideal S10000x128 .f32)
    (xb : Vec Ideal S400x128 .f32) (xw : Vec Ideal S128x128 .f32) (p : Fin 400) (q : Fin 128) :
    k2_pay1 xd xa xy xb xw (ix2 p q)
      = ∑ k : Fin 128, (xd (ix2 p (0 : Fin 1)) * ((∑ j : Fin 10000, xa (ix2 p j) * xy (ix2 j k)) + xb (ix2 p k))) * xw (ix2 k q) := by
  unfold k2_pay1
  simp only [shapeCast_self]
  refine (matmulGw_apply _ xw p q).trans ?_
  refine Finset.sum_congr rfl fun k _ => ?_
  refine congrArg (· * xw (ix2 k q)) ?_
  refine (mulf_apply _ _ (ix2 p k)).trans ?_
  refine congrArg₂ (· * ·) (broadcastTo_a1_ab_apply xd _ p k) ?_
  refine (addf_apply _ _ (ix2 p k)).trans ?_
  exact congrArg (· + xb (ix2 p k)) (matmulAy_apply xa xy p k)

/-! ## The stored block is the payload of the loaded blocks -/

theorem zeros2 : (![0, 0] : Fin 2 → Nat) = fun _ => 0 := funext fun a => by fin_cases a <;> rfl

/-- Every load is of a whole buffer and the one store covers the output's, so what the body leaves there is the payload
    of the five buffers' contents. -/
theorem out_eq_pay (x0 : Vec Ideal S400x10000 .f32) (x1 : Vec Ideal S10000x128 .f32) (x2 : Vec Ideal S400x128 .f32)
    (x3 : Vec Ideal S400x1 .f32) (x4 : Vec Ideal S128x128 .f32) : out2_5 x0 x1 x2 x3 x4 = k2_pay1 x3 x0 x1 x2 x4 := by
  unfold out2_5
  rw [View.canon_unit_zero zeros2]
  simp only [View.ld_unit_zero (S := S400x10000) zeros2, View.ld_unit_zero (S := S10000x128) zeros2,
    View.ld_unit_zero (S := S400x128) zeros2, View.ld_unit_zero (S := S400x1) zeros2, View.ld_unit_zero (S := S128x128) zeros2]

/-! ## The arrays and the blocks, each at its literal type -/

/-- The matrix A, the r column, the row-scaled features y and the stacked weights w as the region finds them. -/
abbrev aArr (c : Dev nD) : FVec Ideal S10000x10000 .f32 := V c main_arg0
abbrev dArr (c : Dev nD) : FVec Ideal S10000x1 .f32 := V c main_v0_0
abbrev yArr (c : Dev nD) : FVec Ideal S10000x128 .f32 := V c main_v5
abbrev wArr (c : Dev nD) : FVec Ideal S128x128 .f32 := V c main_v9

/-- The five blocks point t's body reads. -/
abbrev aBlk (c : Dev nD) (t : Fin cfg2.N) : Vec Ideal S400x10000 .f32 := iblk2 V c 0 t
abbrev yAll (c : Dev nD) (t : Fin cfg2.N) : Vec Ideal S10000x128 .f32 := iblk2 V c 1 t
abbrev yBlk (c : Dev nD) (t : Fin cfg2.N) : Vec Ideal S400x128 .f32 := iblk2 V c 2 t
abbrev dBlk (c : Dev nD) (t : Fin cfg2.N) : Vec Ideal S400x1 .f32 := iblk2 V c 3 t
abbrev wAll (c : Dev nD) (t : Fin cfg2.N) : Vec Ideal S128x128 .f32 := iblk2 V c 4 t

/-- The streaming layer of the arrays, index by index: what the output array ends holding. -/
def layerOut (c : Dev nD) : S10000x128.Idx → EReal := fun i =>
  Cert.Spec.layerG (aArr V c) (fun r => dArr V c (ix2 r (0 : Fin 1))) (fun j k => yArr V c (ix2 j k))
    (fun k c' => wArr V c (ix2 k c')) (i 0) (i 1)

/-! ## Where each block sits in its array -/

/-- The block index maps over the 25 points: the rows of A, the block's rows of y, the block's r column and the output
    move down one block of rows per point; all of y and the weights stay at the origin. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt25 (t : Fin cfg2.N) : t.val < 25 := lt_of_lt_of_eq t.isLt (show cfg2.N = 25 from N_2)

/-- Row p of point t's block of A is row 400 t + p of A. -/
theorem aBlk_apply (c : Dev nD) (t : Fin cfg2.N) (p : Fin 400) (j : Fin 10000) (r : Fin 10000) (hr : r.val = 400 * t.val + p.val) :
    aBlk V c t (ix2 p j) = aArr V c (ix2 r j) := by
  obtain ⟨e0, e1, -⟩ := index_facts t
  show V c main_arg0 (((cfg2.win 0).blk t).view.emb (ix2 p j)) = V c main_arg0 (ix2 r j)
  refine congrArg (V c main_arg0) (funext fun a => Fin.ext ?_)
  match a with
  | ⟨0, _⟩ => show win2_0.index t (0 : Fin 2) * 400 + 1 * p.val = r.val; omega
  | ⟨1, _⟩ => show win2_0.index t (1 : Fin 2) * 10000 + 1 * j.val = j.val; omega

/-- The whole-array window of y holds y. -/
theorem yAll_apply (c : Dev nD) (t : Fin cfg2.N) (j : Fin 10000) (k : Fin 128) :
    yAll V c t (ix2 j k) = yArr V c (ix2 j k) := by
  obtain ⟨-, -, e0, e1, -⟩ := index_facts t
  show V c main_v5 (((cfg2.win 1).blk t).view.emb (ix2 j k)) = V c main_v5 (ix2 j k)
  refine congrArg (V c main_v5) (funext fun a => Fin.ext ?_)
  match a with
  | ⟨0, _⟩ => show win2_1.index t (0 : Fin 2) * 10000 + 1 * j.val = j.val; omega
  | ⟨1, _⟩ => show win2_1.index t (1 : Fin 2) * 128 + 1 * k.val = k.val; omega

/-- Row p of point t's block of y is row 400 t + p of y. -/
theorem yBlk_apply (c : Dev nD) (t : Fin cfg2.N) (p : Fin 400) (k : Fin 128) (r : Fin 10000) (hr : r.val = 400 * t.val + p.val) :
    yBlk V c t (ix2 p k) = yArr V c (ix2 r k) := by
  obtain ⟨-, -, -, -, e0, e1, -⟩ := index_facts t
  show V c main_v5 (((cfg2.win 2).blk t).view.emb (ix2 p k)) = V c main_v5 (ix2 r k)
  refine congrArg (V c main_v5) (funext fun a => Fin.ext ?_)
  match a with
  | ⟨0, _⟩ => show win2_2.index t (0 : Fin 2) * 400 + 1 * p.val = r.val; omega
  | ⟨1, _⟩ => show win2_2.index t (1 : Fin 2) * 128 + 1 * k.val = k.val; omega

/-- Row p of point t's block of the r column is row 400 t + p of the column. -/
theorem dBlk_apply (c : Dev nD) (t : Fin cfg2.N) (p : Fin 400) (r : Fin 10000) (hr : r.val = 400 * t.val + p.val) :
    dBlk V c t (ix2 p (0 : Fin 1)) = dArr V c (ix2 r (0 : Fin 1)) := by
  obtain ⟨-, -, -, -, -, -, e0, e1, -⟩ := index_facts t
  show V c main_v0_0 (((cfg2.win 3).blk t).view.emb (ix2 p (0 : Fin 1))) = V c main_v0_0 (ix2 r (0 : Fin 1))
  refine congrArg (V c main_v0_0) (funext fun a => Fin.ext ?_)
  match a with
  | ⟨0, _⟩ => show win2_3.index t (0 : Fin 2) * 400 + 1 * p.val = r.val; omega
  | ⟨1, _⟩ => show win2_3.index t (1 : Fin 2) * 1 + 1 * 0 = 0; omega

/-- The whole-array window of the weights holds the weights. -/
theorem wAll_apply (c : Dev nD) (t : Fin cfg2.N) (k : Fin 128) (q : Fin 128) :
    wAll V c t (ix2 k q) = wArr V c (ix2 k q) := by
  obtain ⟨-, -, -, -, -, -, -, -, e0, e1, -⟩ := index_facts t
  show V c main_v9 (((cfg2.win 4).blk t).view.emb (ix2 k q)) = V c main_v9 (ix2 k q)
  refine congrArg (V c main_v9) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- Row p, column q of point t's output block is row 400 t + p, column q of the output array. -/
theorem out_emb (t : Fin cfg2.N) (p : Fin 400) (q : Fin 128) (r : Fin 10000) (hr : r.val = 400 * t.val + p.val) :
    ((cfg2.win 5).blk t).view.emb (ix2 p q) = ix2 r q := by
  obtain ⟨-, -, -, -, -, -, -, -, -, -, e0, e1⟩ := index_facts t
  refine funext fun a => Fin.ext ?_
  match a with
  | ⟨0, _⟩ => show win2_5.index t (0 : Fin 2) * 400 + 1 * p.val = r.val; omega
  | ⟨1, _⟩ => show win2_5.index t (1 : Fin 2) * 128 + 1 * q.val = q.val; omega

/-! ## What a point writes back -/

/-- The payload of point t's blocks at row p, column q is the layer at row 400 t + p, column q. -/
theorem pay_blocks (c : Dev nD) (t : Fin cfg2.N) (p : Fin 400) (q : Fin 128) (r : Fin 10000) (hr : r.val = 400 * t.val + p.val) :
    k2_pay1 (dBlk V c t) (aBlk V c t) (yAll V c t) (yBlk V c t) (wAll V c t) (ix2 p q) = layerOut V c (ix2 r q) := by
  refine (pay_apply (dBlk V c t) (aBlk V c t) (yAll V c t) (yBlk V c t) (wAll V c t) p q).trans ?_
  show _ = ∑ k : Fin 128, (dArr V c (ix2 r (0 : Fin 1)) * ((∑ j : Fin 10000, aArr V c (ix2 r j) * yArr V c (ix2 j k)) + yArr V c (ix2 r k))) * wArr V c (ix2 k q)
  refine Finset.sum_congr rfl fun k _ => ?_
  rw [dBlk_apply V c t p r hr, yBlk_apply V c t p k r hr, wAll_apply V c t k q]
  refine congrArg (fun s => (dArr V c (ix2 r (0 : Fin 1)) * (s + yArr V c (ix2 r k))) * wArr V c (ix2 k q)) ?_
  refine Finset.sum_congr rfl fun j _ => ?_
  rw [aBlk_apply V c t p j r hr, yAll_apply V c t j k]

/-- Point t's output block at a block index y is the layer at y's place in the array. -/
theorem pay_at (c : Dev nD) (t : Fin cfg2.N) (y : S400x128.Idx) :
    k2_pay1 (dBlk V c t) (aBlk V c t) (yAll V c t) (yBlk V c t) (wAll V c t) y
      = layerOut V c (((cfg2.win 5).blk t).view.emb y) := by
  obtain ⟨p, q, rfl⟩ : ∃ (p : Fin 400) (q : Fin 128), y = ix2 p q := ⟨y 0, y 1, eq_ix2 y⟩
  have h25 := lt25 t
  have hp := p.isLt
  have e := out_emb t p q ⟨400 * t.val + p.val, by omega⟩ rfl
  exact (pay_blocks V c t p q ⟨400 * t.val + p.val, by omega⟩ rfl).trans (congrArg (layerOut V c) e.symm)

/-- WHAT POINT t WRITES BACK is block t of the layer of the arrays the region was entered with. -/
theorem flushed_eq_layer (c : Dev nD) (t : Fin cfg2.N) :
    (dat2 (F := Ideal) V c).flushed 5 t = ((cfg2.win 5).blk t).view.read (Elt Ideal) (layerOut V c) := by
  show (cfg2.win 5).cut (grid2.coords t) ((dat2 (F := Ideal) V c).after 5 t) = _
  rw [after2_5, out_eq_pay]
  funext y
  exact pay_at V c t y

/-! ## The blocks tile the rows -/

/-- An index of the output array is in point t's block iff each coordinate is in the block's range on its axis. -/
theorem mem_block (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v10).slice (win2_5.rect t)).set ↔ _
  rw [View.set_slice_whole, Rect.mem_set_unit]
  exact Iff.rfl

/-- Row r lies in block r / 400. -/
theorem rows_covered (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 25 := N_2
  refine ⟨⟨(i 0).val / 400, by rw [hN]; omega⟩, flush2_5 _, ?_⟩
  rw [mem_block]
  obtain ⟨-, -, -, -, -, -, -, -, -, -, e0, e1⟩ := index_facts ⟨(i 0).val / 400, by rw [hN]; omega⟩
  intro a
  match a with
  | ⟨0, _⟩ =>
    show win2_5.index _ (0 : Fin 2) * 400 ≤ (i 0).val ∧ (i 0).val < win2_5.index _ (0 : Fin 2) * 400 + 400
    rw [e0]; show (i 0).val / 400 * 400 ≤ (i 0).val ∧ (i 0).val < (i 0).val / 400 * 400 + 400; omega
  | ⟨1, _⟩ =>
    show win2_5.index _ (1 : Fin 2) * 128 ≤ (i 1).val ∧ (i 1).val < win2_5.index _ (1 : Fin 2) * 128 + 128
    rw [e1]; omega

/-! ## The output array after the region -/

/-- The array ends holding the layer. -/
theorem arr2_5_eq (c : Dev nD) : (dat2 (F := Ideal) V c).arrAt 5 cfg2.N = layerOut V c :=
  (dat2 (F := Ideal) V c).arrAt_eq_of_cover 5 (layerOut V c) (fun t _ => flushed_eq_layer V c t) rows_covered

/-- Entry (i, cc) of the second layer's output array after its pass: the streaming layer of A, the r column, the
    row-scaled features and the stacked weights as the pass found them. -/
theorem arr2_5 (c : Dev nD) (i : Fin 10000) (cc : Fin 128) :
    (dat2 (F := Ideal) V c).arrAt 5 cfg2.N (ix2 i cc)
      = Cert.Spec.layerG (V c main_arg0) (fun i => V c main_v0_0 (ix2 i (0 : Fin 1))) (fun j k => V c main_v5 (ix2 j k))
          (fun k c' => V c main_v9 (ix2 k c')) i cc :=
  congrFun (arr2_5_eq V c) (ix2 i cc)

end Cert.KernelIdeal.HandVal2

end
-- ==== Proof.KI.ValHost.lean ====
/-
  What the two stretches of host operations between the kernel regions leave in the stacked-weights buffers.

  Each stretch takes layer l's 4 × 128 × 32 block of the weights W (head, input feature, head feature), moves the
  input-feature axis in front (128 × 4 × 32) and flattens the last two axes row-major into 128 columns: column c
  holds head c / 32, head feature c % 32. Read at (k, c) the result is W (l, c / 32, k, c % 32).
-/
import proofs.«137941_g48387101557188_cont_8to1_c_480_3_alg».proof.Proof.Gen.KernelIdeal.Launch
import proofs.«137941_g48387101557188_cont_8to1_c_480_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandVal

open Cert.KernelIdeal Cert.KernelIdeal.Gen Idealize.ShloMosaic Idealize.ShloMosaic.TcCoe Idealize.ShloMosaic.StableHlo Idealize.ShloMosaic.ValueIdx

/-- The four layout operations of one stretch, as a function of the weights: slice the layer's block at offsets
    `off`, drop the unit axis, move the input-feature axis in front, flatten head and head feature. -/
def stack (off : Fin S2x4x128x32.rank → Nat) (h : S2x4x128x32.Slices off S1x4x128x32)
    (W : S2x4x128x32.Idx → EReal) : S128x128.Idx → EReal :=
  shapeCast S128x128
    (transpose S128x4x32 [1, 0, 2]
      (shapeCast S4x128x32 (extractStridedSlice S1x4x128x32 off W h) shapeCasts_S1x4x128x32_S4x128x32)
      transposes_S4x128x32_S128x4x32_1_0_2)
    shapeCasts_S128x4x32_S128x128

/-- Read at (k, c): with the slice starting at layer l and at zero on the other axes, the entry is
    W (l, c / 32, k, c % 32). Row-major, c = 32 · (c / 32) + c % 32 on the flattened axis; the unit axis contributes 0. -/
theorem stack_apply (off : Fin S2x4x128x32.rank → Nat) (h : S2x4x128x32.Slices off S1x4x128x32)
    (l : Fin 2) (h0 : off 0 = l.val) (h1 : off 1 = 0) (h2 : off 2 = 0) (h3 : off 3 = 0)
    (W : S2x4x128x32.Idx → EReal) (k cc : Fin 128) :
    stack off h W (ix2 k cc) = W (ix4 l (Cert.Spec.hd cc) k (Cert.Spec.he cc)) := by
  have hk : k.val < 128 := k.isLt
  have hc : cc.val < 128 := cc.isLt
  unfold stack
  -- the flattening 128 × 4 × 32 → 128 × 128
  refine (shapeCast_apply _ shapeCasts_S128x4x32_S128x128 (ix2 k cc) (ix3 k (Cert.Spec.hd cc) (Cert.Spec.he cc)) ?_).trans ?_
  · rw [Shape.rowMajor_val_three, Shape.rowMajor_val_two]
    show (k.val * 4 + cc.val / 32) * 32 + cc.val % 32 = k.val * 128 + cc.val
    omega
  -- the transpose [1, 0, 2]
  refine (transpose_apply [1, 0, 2] _ transposes_S4x128x32_S128x4x32_1_0_2 (ix3 k (Cert.Spec.hd cc) (Cert.Spec.he cc))
    (ix3 (Cert.Spec.hd cc) k (Cert.Spec.he cc)) (fun b => match b with
      | ⟨0, _⟩ => rfl
      | ⟨1, _⟩ => rfl
      | ⟨2, _⟩ => rfl)).trans ?_
  -- the unit axis dropped
  refine (shapeCast_apply _ shapeCasts_S1x4x128x32_S4x128x32 (ix3 (Cert.Spec.hd cc) k (Cert.Spec.he cc))
    (ix4 (0 : Fin 1) (Cert.Spec.hd cc) k (Cert.Spec.he cc)) ?_).trans ?_
  · rw [Shape.rowMajor_val_four, Shape.rowMajor_val_three]
    show ((0 * 4 + cc.val / 32) * 128 + k.val) * 32 + cc.val % 32 = (cc.val / 32 * 128 + k.val) * 32 + cc.val % 32
    omega
  -- the slice
  exact extractStridedSlice_apply off W h (ix4 (0 : Fin 1) (Cert.Spec.hd cc) k (Cert.Spec.he cc))
    (ix4 l (Cert.Spec.hd cc) k (Cert.Spec.he cc)) (fun a => match a with
      | ⟨0, _⟩ => by show l.val = off 0 + 0; omega
      | ⟨1, _⟩ => by show cc.val / 32 = off 1 + cc.val / 32; omega
      | ⟨2, _⟩ => by show k.val = off 2 + k.val; omega
      | ⟨3, _⟩ => by show cc.val % 32 = off 3 + cc.val % 32; omega)

/-- After the first stretch its last buffer holds layer 0's weights with the heads stacked along the columns. -/
theorem wl0_at (Wv : Valuation τ sig (Elt Ideal)) (k cc : Fin 128) :
    StableHlo.after (hostOps1 (F := Ideal)) Wv main_v4 (ix2 k cc) = Cert.Spec.wl (Wv main_arg2) 0 k cc := by
  have e : (StableHlo.after (hostOps1 (F := Ideal)) Wv main_v4 : S128x128.Idx → EReal)
      = stack ![0, 0, 0, 0] slices_S2x4x128x32_S1x4x128x32_0_0_0_0 (Wv main_arg2) := by
    after_results
    rfl
  rw [e]
  exact stack_apply _ _ 0 rfl rfl rfl rfl _ k cc

/-- After the second stretch its last buffer holds layer 1's weights with the heads stacked along the columns. -/
theorem wl1_at (Wv : Valuation τ sig (Elt Ideal)) (k cc : Fin 128) :
    StableHlo.after (hostOps2 (F := Ideal)) Wv main_v9 (ix2 k cc) = Cert.Spec.wl (Wv main_arg2) 1 k cc := by
  have e : (StableHlo.after (hostOps2 (F := Ideal)) Wv main_v9 : S128x128.Idx → EReal)
      = stack ![1, 0, 0, 0] slices_S2x4x128x32_S1x4x128x32_1_0_0_0 (Wv main_arg2) := by
    after_results
    rfl
  rw [e]
  exact stack_apply _ _ 1 rfl rfl rfl rfl _ k cc

end Cert.KernelIdeal.HandVal

end
-- ==== Proof.KI.Value.lean ====
/-
  What the streaming program leaves in its result array, on the extended reals: the specification's streaming form of the
  argument arrays. The contents of every buffer between two items are a fold from the launch memory; walking it back from
  the result: the last pass leaves one streaming layer of A, the r column, the hidden activations and the second layer's
  stacked weights; the hidden activations are what the first layer's pass left, r · max (one streaming layer of A, the r
  column, the scaled features and the first layer's stacked weights) 0; the r column and the scaled features are what the
  degree pass left, r = (row sum of A + 1)^(-1/2) and r · x; the stacked weights are the host operations' rearrangement
  of W; and no item writes an argument.
-/
import proofs.«137941_g48387101557188_cont_8to1_c_480_3_alg».proof.Proof.KI.Run
import proofs.«137941_g48387101557188_cont_8to1_c_480_3_alg».proof.Proof.KI.Val0
import proofs.«137941_g48387101557188_cont_8to1_c_480_3_alg».proof.Proof.KI.Val1
import proofs.«137941_g48387101557188_cont_8to1_c_480_3_alg».proof.Proof.KI.Val2
import proofs.«137941_g48387101557188_cont_8to1_c_480_3_alg».proof.Proof.KI.ValHost

noncomputable section

namespace Cert.KernelIdeal.HandVal

open Cert.KernelIdeal Cert.KernelIdeal.Gen Cert.KernelIdeal.Hand
open Cert.KernelIdeal.HandVal0 Cert.KernelIdeal.HandVal1 Cert.KernelIdeal.HandVal2
open Idealize.ShloMosaic Idealize.ShloMosaic.TcCoe Idealize.ShloMosaic.ValueIdx
open Idealize.SL.Sem

/-- A streaming layer depends on its four ingredients entry by entry. -/
theorem layerG_congr {A A' : Cert.Spec.SA.Idx → EReal} {d d' : Fin 10000 → EReal} {y y' : Fin 10000 → Fin 128 → EReal}
    {w w' : Fin 128 → Fin 128 → EReal} (hA : A = A') (hd : ∀ i, d i = d' i) (hy : ∀ j k, y j k = y' j k)
    (hw : ∀ k c, w k c = w' k c) (i : Fin 10000) (c : Fin 128) :
    Cert.Spec.layerG A d y w i c = Cert.Spec.layerG A' d' y' w' i c := by
  obtain rfl := hA
  obtain rfl : d = d' := funext hd
  obtain rfl : y = y' := funext fun j => funext fun k => hy j k
  obtain rfl : w = w' := funext fun k => funext fun c => hw k c
  rfl

variable (m : (ℓ : Loc nD τ sig) → Buf (Elt Ideal) ℓ)

/-! ## The arguments, read through the fold -/

theorem W4_arg0 (c : Dev nD) : W4 m c main_arg0 = m ((c : Thread nD τ).loc main_arg0) :=
  (W4_of m c main_arg0 (by decide)).trans <| (W3_of_ne m c main_arg0 (by decide)).trans <|
    (W2_of m c main_arg0 (by decide)).trans <| (W1_of_ne m c main_arg0 (by decide) (by decide)).trans rfl
theorem W2_arg0 (c : Dev nD) : W2 m c main_arg0 = m ((c : Thread nD τ).loc main_arg0) :=
  (W2_of m c main_arg0 (by decide)).trans <| (W1_of_ne m c main_arg0 (by decide) (by decide)).trans rfl
theorem W3_arg2 (c : Dev nD) : W3 m c main_arg2 = m ((c : Thread nD τ).loc main_arg2) :=
  (W3_of_ne m c main_arg2 (by decide)).trans <| (W2_of m c main_arg2 (by decide)).trans <|
    (W1_of_ne m c main_arg2 (by decide) (by decide)).trans rfl
theorem W1_arg2 (c : Dev nD) : W1 m c main_arg2 = m ((c : Thread nD τ).loc main_arg2) :=
  (W1_of_ne m c main_arg2 (by decide) (by decide)).trans rfl

/-! ## The r column and the scaled features, wherever they are read -/

theorem W1_d (c : Dev nD) (i : Fin 10000) :
    W1 m c main_v0_0 (ix2 i (0 : Fin 1)) = Cert.Spec.dK (m ((c : Thread nD τ).loc main_arg0)) i := by
  rw [W1_v0_0]; exact arr0_2 (Vr0 m) c i
theorem W1_y (c : Dev nD) (i : Fin 10000) (k : Fin 128) :
    W1 m c main_v0_1 (ix2 i k) = Cert.Spec.y1 (m ((c : Thread nD τ).loc main_arg0)) (m ((c : Thread nD τ).loc main_arg1)) i k := by
  rw [W1_v0_1]; exact arr0_3 (Vr0 m) c i k
theorem W2_d (c : Dev nD) (i : Fin 10000) :
    W2 m c main_v0_0 (ix2 i (0 : Fin 1)) = Cert.Spec.dK (m ((c : Thread nD τ).loc main_arg0)) i := by
  rw [W2_of m c main_v0_0 (by decide)]; exact W1_d m c i
theorem W2_y (c : Dev nD) (i : Fin 10000) (k : Fin 128) :
    W2 m c main_v0_1 (ix2 i k) = Cert.Spec.y1 (m ((c : Thread nD τ).loc main_arg0)) (m ((c : Thread nD τ).loc main_arg1)) i k := by
  rw [W2_of m c main_v0_1 (by decide)]; exact W1_y m c i k
theorem W4_d (c : Dev nD) (i : Fin 10000) :
    W4 m c main_v0_0 (ix2 i (0 : Fin 1)) = Cert.Spec.dK (m ((c : Thread nD τ).loc main_arg0)) i := by
  rw [W4_of m c main_v0_0 (by decide), W3_of_ne m c main_v0_0 (by decide)]; exact W2_d m c i

/-! ## The stacked weights -/

theorem W2_w (c : Dev nD) (k cc : Fin 128) :
    W2 m c main_v4 (ix2 k cc) = Cert.Spec.wl (m ((c : Thread nD τ).loc main_arg2)) 0 k cc := by
  show StableHlo.after (hostOps1 (F := Ideal)) (W1 m c) main_v4 (ix2 k cc) = _
  rw [wl0_at (W1 m c) k cc, W1_arg2]
theorem W4_w (c : Dev nD) (k cc : Fin 128) :
    W4 m c main_v9 (ix2 k cc) = Cert.Spec.wl (m ((c : Thread nD τ).loc main_arg2)) 1 k cc := by
  show StableHlo.after (hostOps2 (F := Ideal)) (W3 m c) main_v9 (ix2 k cc) = _
  rw [wl1_at (W3 m c) k cc, W3_arg2]

/-! ## The hidden activations -/

theorem W3_h (c : Dev nD) (i : Fin 10000) (cc : Fin 128) :
    W3 m c main_v5 (ix2 i cc)
      = Cert.Spec.y2 (m ((c : Thread nD τ).loc main_arg0)) (m ((c : Thread nD τ).loc main_arg1)) (m ((c : Thread nD τ).loc main_arg2)) i cc := by
  rw [W3_v5, arr1_5 (Vr2 m) c i cc]
  exact congrArg₂ (fun a b : EReal => a * max b 0) (W2_d m c i)
    (layerG_congr (W2_arg0 m c) (W2_d m c) (W2_y m c) (W2_w m c) i cc)
theorem W4_h (c : Dev nD) (i : Fin 10000) (cc : Fin 128) :
    W4 m c main_v5 (ix2 i cc)
      = Cert.Spec.y2 (m ((c : Thread nD τ).loc main_arg0)) (m ((c : Thread nD τ).loc main_arg1)) (m ((c : Thread nD τ).loc main_arg2)) i cc := by
  rw [W4_of m c main_v5 (by decide)]; exact W3_h m c i cc

/-! ## The result -/

/-- The result array after the run is the streaming form of the arguments. -/
theorem W5_out (c : Dev nD) (i : Fin 10000) (cc : Fin 128) :
    W5 m c main_v10 (ix2 i cc)
      = Cert.Spec.outK (m ((c : Thread nD τ).loc main_arg0)) (m ((c : Thread nD τ).loc main_arg1)) (m ((c : Thread nD τ).loc main_arg2)) i cc := by
  rw [W5_v10, arr2_5 (Vr4 m) c i cc]
  exact layerG_congr (W4_arg0 m c) (W4_d m c) (W4_h m c) (W4_w m c) i cc

end Cert.KernelIdeal.HandVal

end
-- ==== Proof.RefRunH.lean ====
/-
  The reference program's run, read back in stages.

  The program is a straight line of 48 array operations. Run from any contents of the three argument arrays it ends
  with its last array equal to the composed value of the 48 operations. That value is stated here through the named
  stages of the operations (each stage is one operation applied to earlier stages), and it is reached in four steps:
  the first thirty operations, which end with the four heads of the first layer; the join of those four along the
  columns; the next sixteen operations, which take the joined array and the normalised matrix as given and end with
  the four heads of the second layer; and the join of those. No step compares two whole composed values: each later
  step sees the earlier results only as arrays named by equations.
-/
import proofs.«137941_g48387101557188_cont_8to1_c_480_3_alg».proof.Proof.RefReadP
import Idealize.ShloMosaic.Lib.StableHlo.Run

noncomputable section

namespace Cert.ReferenceIdeal.ValueH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-! ## The operation list in four pieces -/

/-- Operations 1 to 30: the normalised matrix, its product with the features, and the four heads of the first layer. -/
def opsA : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_arg0 main_v5 main_v6 (addf : (⟨S10000x10000, .f32⟩ : BufTy).Contents (Elt F) → (⟨S10000x10000, .f32⟩ : BufTy).Contents (Elt F) → (⟨S10000x10000, .f32⟩ : BufTy).Contents (Elt F)),
    nullary main_cst (constant S_ .f32 0x00000000#32),
    binary main_v6 main_cst main_v7 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v7 main_v8 (Host.rsqrt : (⟨S10000, .f32⟩ : BufTy).Contents (Elt F) → (⟨S10000, .f32⟩ : BufTy).Contents (Elt F)),
    unary main_v8 main_v9 (broadcastInDim S10000x1 ![0] bcast_S10000_S10000x1_0 : (⟨S10000, .f32⟩ : BufTy).Contents (Elt F) → (⟨S10000x1, .f32⟩ : BufTy).Contents (Elt F)),
    unary main_v9 main_v10 (broadcastInDim S10000x10000 ![0, 1] bcast_S10000x1_S10000x10000_0_1 : (⟨S10000x1, .f32⟩ : BufTy).Contents (Elt F) → (⟨S10000x10000, .f32⟩ : BufTy).Contents (Elt F)),
    binary main_v6 main_v10 main_v11 (mulf : (⟨S10000x10000, .f32⟩ : BufTy).Contents (Elt F) → (⟨S10000x10000, .f32⟩ : BufTy).Contents (Elt F) → (⟨S10000x10000, .f32⟩ : BufTy).Contents (Elt F)),
    unary main_v8 main_v12 (broadcastInDim S1x10000 ![1] bcast_S10000_S1x10000_1 : (⟨S10000, .f32⟩ : BufTy).Contents (Elt F) → (⟨S1x10000, .f32⟩ : BufTy).Contents (Elt F)),
    unary main_v12 main_v13 (broadcastInDim S10000x10000 ![0, 1] bcast_S1x10000_S10000x10000_0_1 : (⟨S1x10000, .f32⟩ : BufTy).Contents (Elt F) → (⟨S10000x10000, .f32⟩ : BufTy).Contents (Elt F)),
    binary main_v11 main_v13 main_v14 (mulf : (⟨S10000x10000, .f32⟩ : BufTy).Contents (Elt F) → (⟨S10000x10000, .f32⟩ : BufTy).Contents (Elt F) → (⟨S10000x10000, .f32⟩ : BufTy).Contents (Elt F)),
    binary main_v14 main_arg1 main_v15 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v16 ((extractStridedSlice S1x1x128x32 ![0, 0, 0, 0] · slices_S2x4x128x32_S1x1x128x32_0_0_0_0) : (⟨S2x4x128x32, .f32⟩ : BufTy).Contents (Elt F) → (⟨S1x1x128x32, .f32⟩ : BufTy).Contents (Elt F)),
    reshape main_v16 main_v17 rfl shapeCasts_S1x1x128x32_S128x32,
    binary main_v15 main_v17 main_v18 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v19 ((extractStridedSlice S1x1x128x32 ![0, 1, 0, 0] · slices_S2x4x128x32_S1x1x128x32_0_1_0_0) : (⟨S2x4x128x32, .f32⟩ : BufTy).Contents (Elt F) → (⟨S1x1x128x32, .f32⟩ : BufTy).Contents (Elt F)),
    reshape main_v19 main_v20 rfl shapeCasts_S1x1x128x32_S128x32,
    binary main_v15 main_v20 main_v21 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v22 ((extractStridedSlice S1x1x128x32 ![0, 2, 0, 0] · slices_S2x4x128x32_S1x1x128x32_0_2_0_0) : (⟨S2x4x128x32, .f32⟩ : BufTy).Contents (Elt F) → (⟨S1x1x128x32, .f32⟩ : BufTy).Contents (Elt F)),
    reshape main_v22 main_v23 rfl shapeCasts_S1x1x128x32_S128x32,
    binary main_v15 main_v23 main_v24 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v25 ((extractStridedSlice S1x1x128x32 ![0, 3, 0, 0] · slices_S2x4x128x32_S1x1x128x32_0_3_0_0) : (⟨S2x4x128x32, .f32⟩ : BufTy).Contents (Elt F) → (⟨S1x1x128x32, .f32⟩ : BufTy).Contents (Elt F)),
    reshape main_v25 main_v26 rfl shapeCasts_S1x1x128x32_S128x32,
    binary main_v15 main_v26 main_v27 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)) ]

/-- Operation 31: the first layer's four heads joined along the columns. -/
def op28 : HloOp τ sig (Elt F) :=
  nary ![main_v18, main_v21, main_v24, main_v27] main_v28 (fun u => concatenate S10000x128 1 [⟨S10000x32, u 0⟩, ⟨S10000x32, u 1⟩, ⟨S10000x32, u 2⟩, ⟨S10000x32, u 3⟩] concatenates_S10000x32_S10000x32_S10000x32_S10000x32_S10000x128_d1)

/-- Operations 32 to 47: the maximum with zero, the product with the normalised matrix, and the four heads of the
    second layer. -/
def opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v28) (TRef.of (T := ⟨S10000x128, .f32⟩) main_call0_v0) (TRef.of (T := ⟨S10000x128, .f32⟩) main_v29) maximumf,
    binary main_v14 main_v29 main_v30 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v31 ((extractStridedSlice S1x1x128x32 ![1, 0, 0, 0] · slices_S2x4x128x32_S1x1x128x32_1_0_0_0) : (⟨S2x4x128x32, .f32⟩ : BufTy).Contents (Elt F) → (⟨S1x1x128x32, .f32⟩ : BufTy).Contents (Elt F)),
    reshape main_v31 main_v32 rfl shapeCasts_S1x1x128x32_S128x32,
    binary main_v30 main_v32 main_v33 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v34 ((extractStridedSlice S1x1x128x32 ![1, 1, 0, 0] · slices_S2x4x128x32_S1x1x128x32_1_1_0_0) : (⟨S2x4x128x32, .f32⟩ : BufTy).Contents (Elt F) → (⟨S1x1x128x32, .f32⟩ : BufTy).Contents (Elt F)),
    reshape main_v34 main_v35 rfl shapeCasts_S1x1x128x32_S128x32,
    binary main_v30 main_v35 main_v36 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v37 ((extractStridedSlice S1x1x128x32 ![1, 2, 0, 0] · slices_S2x4x128x32_S1x1x128x32_1_2_0_0) : (⟨S2x4x128x32, .f32⟩ : BufTy).Contents (Elt F) → (⟨S1x1x128x32, .f32⟩ : BufTy).Contents (Elt F)),
    reshape main_v37 main_v38 rfl shapeCasts_S1x1x128x32_S128x32,
    binary main_v30 main_v38 main_v39 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v40 ((extractStridedSlice S1x1x128x32 ![1, 3, 0, 0] · slices_S2x4x128x32_S1x1x128x32_1_3_0_0) : (⟨S2x4x128x32, .f32⟩ : BufTy).Contents (Elt F) → (⟨S1x1x128x32, .f32⟩ : BufTy).Contents (Elt F)),
    reshape main_v40 main_v41 rfl shapeCasts_S1x1x128x32_S128x32,
    binary main_v30 main_v41 main_v42 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)) ]

/-- Operation 48: the second layer's four heads joined along the columns. -/
def op43 : HloOp τ sig (Elt F) :=
  nary ![main_v33, main_v36, main_v39, main_v42] main_v43 (fun u => concatenate S10000x128 1 [⟨S10000x32, u 0⟩, ⟨S10000x32, u 1⟩, ⟨S10000x32, u 2⟩, ⟨S10000x32, u 3⟩] concatenates_S10000x32_S10000x32_S10000x32_S10000x32_S10000x128_d1)

set_option maxRecDepth 8192 in
/-- The four pieces in order are the whole list. -/
theorem ops_eq : (ops : List (HloOp τ sig (Elt F))) = opsA ++ op28 :: (opsB ++ [op43]) := rfl

/-! ## The first thirty operations, from any contents -/

theorem A_v14 (V : Valuation τ sig (Elt F)) :
    after opsA V (Proc.devRef .tc main_v14) = ReadP.val_main_v14 (F := F) (V (Proc.devRef .tc main_arg0)) := by
  unfold opsA
  after_results_simp <;> rfl

theorem A_v18 (V : Valuation τ sig (Elt F)) :
    after opsA V (Proc.devRef .tc main_v18) = ReadP.val_main_v18 (F := F) (V (Proc.devRef .tc main_arg0)) (V (Proc.devRef .tc main_arg1)) (V (Proc.devRef .tc main_arg2)) := by
  unfold opsA
  after_results_simp <;> rfl

theorem A_v21 (V : Valuation τ sig (Elt F)) :
    after opsA V (Proc.devRef .tc main_v21) = ReadP.val_main_v21 (F := F) (V (Proc.devRef .tc main_arg0)) (V (Proc.devRef .tc main_arg1)) (V (Proc.devRef .tc main_arg2)) := by
  unfold opsA
  after_results_simp <;> rfl

theorem A_v24 (V : Valuation τ sig (Elt F)) :
    after opsA V (Proc.devRef .tc main_v24) = ReadP.val_main_v24 (F := F) (V (Proc.devRef .tc main_arg0)) (V (Proc.devRef .tc main_arg1)) (V (Proc.devRef .tc main_arg2)) := by
  unfold opsA
  after_results_simp <;> rfl

theorem A_v27 (V : Valuation τ sig (Elt F)) :
    after opsA V (Proc.devRef .tc main_v27) = ReadP.val_main_v27 (F := F) (V (Proc.devRef .tc main_arg0)) (V (Proc.devRef .tc main_arg1)) (V (Proc.devRef .tc main_arg2)) := by
  unfold opsA
  after_results_simp <;> rfl

/-- The first thirty operations leave the weights as they were. -/
theorem A_arg2 (V : Valuation τ sig (Elt F)) :
    after opsA V (Proc.devRef .tc main_arg2) = V (Proc.devRef .tc main_arg2) := by
  unfold opsA
  after_results_simp <;> rfl

/-! ## The two joins -/

/-- The first join writes the four heads, side by side, … -/
theorem op28_at (V : Valuation τ sig (Elt F)) :
    (op28 (F := F)).result V (Proc.devRef .tc main_v28)
      = concatenate S10000x128 1 [⟨S10000x32, V (Proc.devRef .tc main_v18)⟩, ⟨S10000x32, V (Proc.devRef .tc main_v21)⟩,
          ⟨S10000x32, V (Proc.devRef .tc main_v24)⟩, ⟨S10000x32, V (Proc.devRef .tc main_v27)⟩] concatenates_S10000x32_S10000x32_S10000x32_S10000x32_S10000x128_d1 := by
  unfold op28
  rw [nary4_result]
  rfl

/-- … and the second join likewise. -/
theorem op43_at (V : Valuation τ sig (Elt F)) :
    (op43 (F := F)).result V (Proc.devRef .tc main_v43)
      = concatenate S10000x128 1 [⟨S10000x32, V (Proc.devRef .tc main_v33)⟩, ⟨S10000x32, V (Proc.devRef .tc main_v36)⟩,
          ⟨S10000x32, V (Proc.devRef .tc main_v39)⟩, ⟨S10000x32, V (Proc.devRef .tc main_v42)⟩] concatenates_S10000x32_S10000x32_S10000x32_S10000x32_S10000x128_d1 := by
  unfold op43
  rw [nary4_result]
  rfl

/-- The first join leaves every other array as it was. -/
theorem op28_ne (V : Valuation τ sig (Elt F)) {r : Ref sig .tc} (h : r ≠ main_v28) :
    (op28 (F := F)).result V (Proc.devRef .tc r) = V (Proc.devRef .tc r) := by
  unfold op28
  exact nary_result_ne _ _ _ _ _ V h

/-! ## Operations 32 to 47, from contents in which the joined array and the normalised matrix are named -/

theorem B_v33 (V : Valuation τ sig (Elt F)) (x0 : (⟨S10000x10000, .f32⟩ : BufTy).Contents (Elt F))
    (x1 : (⟨S10000x128, .f32⟩ : BufTy).Contents (Elt F)) (x2 : (⟨S2x4x128x32, .f32⟩ : BufTy).Contents (Elt F))
    (h14 : V (Proc.devRef .tc main_v14) = ReadP.val_main_v14 (F := F) x0)
    (h28 : V (Proc.devRef .tc main_v28) = ReadP.val_main_v28 (F := F) x0 x1 x2)
    (h2 : V (Proc.devRef .tc main_arg2) = x2) :
    after opsB V (Proc.devRef .tc main_v33) = ReadP.val_main_v33 (F := F) x0 x1 x2 := by
  unfold ReadP.val_main_v33 ReadP.val_main_v30 ReadP.val_main_v29 ReadP.val_main_v32 ReadP.val_main_v31
  rw [← h14, ← h28, ← h2]
  unfold opsB
  after_results_simp <;> rfl

theorem B_v36 (V : Valuation τ sig (Elt F)) (x0 : (⟨S10000x10000, .f32⟩ : BufTy).Contents (Elt F))
    (x1 : (⟨S10000x128, .f32⟩ : BufTy).Contents (Elt F)) (x2 : (⟨S2x4x128x32, .f32⟩ : BufTy).Contents (Elt F))
    (h14 : V (Proc.devRef .tc main_v14) = ReadP.val_main_v14 (F := F) x0)
    (h28 : V (Proc.devRef .tc main_v28) = ReadP.val_main_v28 (F := F) x0 x1 x2)
    (h2 : V (Proc.devRef .tc main_arg2) = x2) :
    after opsB V (Proc.devRef .tc main_v36) = ReadP.val_main_v36 (F := F) x0 x1 x2 := by
  unfold ReadP.val_main_v36 ReadP.val_main_v30 ReadP.val_main_v29 ReadP.val_main_v35 ReadP.val_main_v34
  rw [← h14, ← h28, ← h2]
  unfold opsB
  after_results_simp <;> rfl

theorem B_v39 (V : Valuation τ sig (Elt F)) (x0 : (⟨S10000x10000, .f32⟩ : BufTy).Contents (Elt F))
    (x1 : (⟨S10000x128, .f32⟩ : BufTy).Contents (Elt F)) (x2 : (⟨S2x4x128x32, .f32⟩ : BufTy).Contents (Elt F))
    (h14 : V (Proc.devRef .tc main_v14) = ReadP.val_main_v14 (F := F) x0)
    (h28 : V (Proc.devRef .tc main_v28) = ReadP.val_main_v28 (F := F) x0 x1 x2)
    (h2 : V (Proc.devRef .tc main_arg2) = x2) :
    after opsB V (Proc.devRef .tc main_v39) = ReadP.val_main_v39 (F := F) x0 x1 x2 := by
  unfold ReadP.val_main_v39 ReadP.val_main_v30 ReadP.val_main_v29 ReadP.val_main_v38 ReadP.val_main_v37
  rw [← h14, ← h28, ← h2]
  unfold opsB
  after_results_simp <;> rfl

theorem B_v42 (V : Valuation τ sig (Elt F)) (x0 : (⟨S10000x10000, .f32⟩ : BufTy).Contents (Elt F))
    (x1 : (⟨S10000x128, .f32⟩ : BufTy).Contents (Elt F)) (x2 : (⟨S2x4x128x32, .f32⟩ : BufTy).Contents (Elt F))
    (h14 : V (Proc.devRef .tc main_v14) = ReadP.val_main_v14 (F := F) x0)
    (h28 : V (Proc.devRef .tc main_v28) = ReadP.val_main_v28 (F := F) x0 x1 x2)
    (h2 : V (Proc.devRef .tc main_arg2) = x2) :
    after opsB V (Proc.devRef .tc main_v42) = ReadP.val_main_v42 (F := F) x0 x1 x2 := by
  unfold ReadP.val_main_v42 ReadP.val_main_v30 ReadP.val_main_v29 ReadP.val_main_v41 ReadP.val_main_v40
  rw [← h14, ← h28, ← h2]
  unfold opsB
  after_results_simp <;> rfl

/-! ## The whole line -/

/-- From any contents, the 48 operations end with the last array at the last stage of the argument arrays. -/
theorem after_ops_v43 (V : Valuation τ sig (Elt F)) :
    after (ops (F := F)) V (Proc.devRef .tc main_v43) = ReadP.val_main_v43 (F := F) (V (Proc.devRef .tc main_arg0)) (V (Proc.devRef .tc main_arg1)) (V (Proc.devRef .tc main_arg2)) := by
  rw [ops_eq, StableHlo.after_append, after_cons, StableHlo.after_append, after_cons, after_nil, op43_at]
  have h14 : (op28 (F := F)).result (after opsA V) (Proc.devRef .tc main_v14)
      = ReadP.val_main_v14 (F := F) (V (Proc.devRef .tc main_arg0)) := by
    rw [op28_ne _ (by decide), A_v14]
  have h28 : (op28 (F := F)).result (after opsA V) (Proc.devRef .tc main_v28)
      = ReadP.val_main_v28 (F := F) (V (Proc.devRef .tc main_arg0)) (V (Proc.devRef .tc main_arg1)) (V (Proc.devRef .tc main_arg2)) := by
    rw [op28_at, A_v18, A_v21, A_v24, A_v27]
    rfl
  have h2 : (op28 (F := F)).result (after opsA V) (Proc.devRef .tc main_arg2) = V (Proc.devRef .tc main_arg2) := by
    rw [op28_ne _ (by decide), A_arg2]
  rw [B_v33 _ _ _ _ h14 h28 h2, B_v36 _ _ _ _ h14 h28 h2, B_v39 _ _ _ _ h14 h28 h2, B_v42 _ _ _ _ h14 h28 h2]
  rfl

/-! ## The run -/

set_option maxRecDepth 8192 in
set_option maxHeartbeats 2000000 in
/-- On every device, for any float values, from any memory with zero counters: every weakly fair execution of the
    program terminates with the last array at the last stage of the argument arrays, and the argument arrays
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = Cert.ReferenceIdeal.ReadP.val_main_v43 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v43).trans (after_ops_v43 (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueH

end
-- ==== Proof.RefSide.lean ====
/-
  The reference's result, index by index, is the materialised form of the specification.

  The reference builds the identity matrix from two index grids, adds it to A, sums the rows, takes the reciprocal
  square root, scales rows and columns, and then runs two layers: a product with the normalised matrix, four products
  with the heads' weights joined along the columns, and between the layers a maximum with zero. Each stage is read at
  an index over explicit coordinates and identified with the matching definition of the specification.
-/
import proofs.«137941_g48387101557188_cont_8to1_c_480_3_alg».proof.Proof.Spec
import proofs.«137941_g48387101557188_cont_8to1_c_480_3_alg».proof.Proof.RefReadP
import Idealize.ShloMosaic.Lib.Pipeline.Value
import Idealize.ShloMosaic.Lib.ValueIdx
import Idealize.ShloMosaic.Lib.StableHlo.Predicate
import Idealize.ShloMosaic.PureOps.Ideal.Laws

noncomputable section

namespace Cert.RefSide

open Cert.ReferenceIdeal Cert.ReferenceIdeal.Gen Idealize.ShloMosaic Idealize.ShloMosaic.ValueIdx

/-- Two rank-1 indices with the same coordinate are equal. -/
local macro "idx_eq1" : tactic =>
  `(tactic| exact funext fun a => Fin.ext (by match a with | ⟨0, _⟩ => rfl))
/-- Two rank-2 indices with the same coordinates are equal. -/
local macro "idx_eq2" : tactic =>
  `(tactic| exact funext fun a => Fin.ext (by match a with | ⟨0, _⟩ => rfl | ⟨1, _⟩ => rfl))

/-! ## Facts that do not mention the program -/

/-- Four pieces of 32 columns each joined along the columns, read at column c: piece c / 32 at column c % 32. -/
theorem concat4_apply {α : Type} (p0 p1 p2 p3 : S10000x32.Idx → α)
    (h : Shape.Concatenates [S10000x32, S10000x32, S10000x32, S10000x32] S10000x128 1) (i : Fin 10000) (c : Fin 128) :
    concatenate S10000x128 1 [⟨S10000x32, p0⟩, ⟨S10000x32, p1⟩, ⟨S10000x32, p2⟩, ⟨S10000x32, p3⟩] h (ix2 i c)
      = (![p0, p1, p2, p3] (Spec.hd c)) (ix2 i (Spec.he c)) :=
  concatenate_ofFn_apply (t := S10000x128) (s₁ := S10000x32) 1 (N := 4) ![p0, p1, p2, p3] h rfl 32 rfl (ix2 i c)
    (Spec.hd c) rfl (ix2 i (Spec.he c)) rfl
    (fun b hb => by
      match b with
      | ⟨0, _⟩ => rfl
      | ⟨1, _⟩ => exact absurd rfl hb)

/-- The word compare behind the identity matrix: the row number plus zero against the column number, as 32-bit words,
    then the bit read as a number. Row and column numbers are below 2 ^ 32, so the words are equal exactly when the
    numbers are. -/
theorem eye_word (i j : Fin 10000) :
    (FloatOps.uitofp (F := Ideal) .f32
        (IntOp.cmpi .eq (IntOp.addi (BitVec.ofNat 32 i.val) 0#32) (BitVec.ofNat 32 j.val)) : EReal)
      = Spec.eye i j := by
  unfold Spec.eye
  have hinj : BitVec.ofNat 32 i.val = BitVec.ofNat 32 j.val ↔ i = j := by
    constructor
    · intro h
      have h' := congrArg BitVec.toNat h
      simp only [BitVec.toNat_ofNat] at h'
      have hi := i.isLt; have hj := j.isLt
      exact Fin.ext (by omega)
    · rintro rfl; rfl
  have hadd : IntOp.addi (BitVec.ofNat 32 i.val) 0#32 = BitVec.ofNat 32 i.val := by
    show BitVec.ofNat 32 i.val + 0#32 = _
    exact BitVec.add_zero _
  rw [hadd]
  by_cases hij : i = j
  · rw [if_pos hij, StableHlo.Predicate.cmpi_eq_iff.2 (hinj.2 hij)]
    show (((1#1 : BitVec 1).toNat : ℝ) : EReal) = 1
    simp
  · rw [if_neg hij, eq_zero_of_ne_one (fun h => hij (hinj.1 (StableHlo.Predicate.cmpi_eq_iff.1 h)))]
    show (((0#1 : BitVec 1).toNat : ℝ) : EReal) = 0
    simp

/-- One layer of the materialised form from its stages read at an index: N the normalised matrix, D its product with
    the features Z, W0 … W3 the four heads' weight matrices of layer l, P0 … P3 the four heads' products with D. The
    head of column c is c / 32 and its feature c % 32, which is how the stacked weights of the specification are
    indexed. -/
theorem layer_of_stages (A : Spec.SA.Idx → EReal) (W : Spec.SW.Idx → EReal) (l : Fin 2)
    (Z : Fin 10000 → Fin 128 → EReal) (N : S10000x10000.Idx → EReal) (D : S10000x128.Idx → EReal)
    (W0 W1 W2 W3 : S128x32.Idx → EReal) (P0 P1 P2 P3 : S10000x32.Idx → EReal)
    (hN : ∀ i j, N (ix2 i j) = Spec.An A i j)
    (hD : ∀ i k, D (ix2 i k) = ∑ j : Fin 10000, N (ix2 i j) * Z j k)
    (hW0 : ∀ k e, W0 (ix2 k e) = W (ix4 l (0 : Fin 4) k e))
    (hW1 : ∀ k e, W1 (ix2 k e) = W (ix4 l (1 : Fin 4) k e))
    (hW2 : ∀ k e, W2 (ix2 k e) = W (ix4 l (2 : Fin 4) k e))
    (hW3 : ∀ k e, W3 (ix2 k e) = W (ix4 l (3 : Fin 4) k e))
    (hP0 : ∀ i e, P0 (ix2 i e) = ∑ k : Fin 128, D (ix2 i k) * W0 (ix2 k e))
    (hP1 : ∀ i e, P1 (ix2 i e) = ∑ k : Fin 128, D (ix2 i k) * W1 (ix2 k e))
    (hP2 : ∀ i e, P2 (ix2 i e) = ∑ k : Fin 128, D (ix2 i k) * W2 (ix2 k e))
    (hP3 : ∀ i e, P3 (ix2 i e) = ∑ k : Fin 128, D (ix2 i k) * W3 (ix2 k e))
    (i : Fin 10000) (c : Fin 128) :
    (![P0, P1, P2, P3] (Spec.hd c)) (ix2 i (Spec.he c)) = Spec.layerR A W Z l i c := by
  have key : ∀ (h : Fin 4) (i : Fin 10000) (e : Fin 32),
      (![P0, P1, P2, P3] h) (ix2 i e) = ∑ k : Fin 128, D (ix2 i k) * W (ix4 l h k e) := by
    intro h i e
    match h with
    | ⟨0, _⟩ => exact (hP0 i e).trans (Finset.sum_congr rfl fun k _ => by rw [hW0]; rfl)
    | ⟨1, _⟩ => exact (hP1 i e).trans (Finset.sum_congr rfl fun k _ => by rw [hW1]; rfl)
    | ⟨2, _⟩ => exact (hP2 i e).trans (Finset.sum_congr rfl fun k _ => by rw [hW2]; rfl)
    | ⟨3, _⟩ => exact (hP3 i e).trans (Finset.sum_congr rfl fun k _ => by rw [hW3]; rfl)
  unfold Spec.layerR Spec.wl
  rw [key]
  refine Finset.sum_congr rfl fun k _ => ?_
  rw [hD]
  simp only [hN]

/-! ## The normalised matrix -/

/-- The identity matrix: the converted compare of the two index grids. -/
theorem v5_at (i j : Fin 10000) : ReadP.val_main_v5 (F := Ideal) (ix2 i j) = Spec.eye i j := by
  rw [ReadP.val_main_v5_apply, ReadP.val_main_v4_apply, ReadP.val_main_v3_apply, ReadP.val_main_v0_apply,
    ReadP.val_main_v2_apply, ReadP.val_main_c_apply, ReadP.val_main_v1_apply]
  exact eye_word i j

/-- A plus the identity. -/
theorem v6_at (A : FVec Ideal S10000x10000 .f32) (i j : Fin 10000) :
    ReadP.val_main_v6 (F := Ideal) A (ix2 i j) = A (ix2 i j) + Spec.eye i j := by
  rw [ReadP.val_main_v6_apply, v5_at, Ideal.addf_def]

/-- The row sums: the initial value is the zero word, which reads as 0. -/
theorem v7_at (A : FVec Ideal S10000x10000 .f32) (i : Fin 10000) :
    ReadP.val_main_v7 (F := Ideal) A (ix1 i) = Spec.degR A i := by
  rw [ReadP.val_main_v7_apply, ReadP.val_main_cst_apply, Ideal.ofBits_def, Ideal.ofBits_zero_f32, zero_add]
  unfold Spec.degR
  refine Finset.sum_congr rfl fun k _ => ?_
  rw [show ReadP.idx_main_v7 (ix1 i) k = ix2 i k from by idx_eq2, v6_at]

/-- Their reciprocal square roots. -/
theorem v8_at (A : FVec Ideal S10000x10000 .f32) (i : Fin 10000) :
    ReadP.val_main_v8 (F := Ideal) A (ix1 i) = Spec.dR A i := by
  rw [ReadP.val_main_v8_apply, v7_at, Ideal.hostUnary_rsqrt_def]
  rfl

/-- The row factor, broadcast along the columns. -/
theorem v10_at (A : FVec Ideal S10000x10000 .f32) (i j : Fin 10000) :
    ReadP.val_main_v10 (F := Ideal) A (ix2 i j) = Spec.dR A i := by
  rw [ReadP.val_main_v10_apply, ReadP.val_main_v9_apply,
    show ReadP.idx_main_v9 (ReadP.idx_main_v10 (ix2 i j)) = ix1 i from by idx_eq1, v8_at]

/-- The column factor, broadcast along the rows. -/
theorem v13_at (A : FVec Ideal S10000x10000 .f32) (i j : Fin 10000) :
    ReadP.val_main_v13 (F := Ideal) A (ix2 i j) = Spec.dR A j := by
  rw [ReadP.val_main_v13_apply, ReadP.val_main_v12_apply,
    show ReadP.idx_main_v12 (ReadP.idx_main_v13 (ix2 i j)) = ix1 j from by idx_eq1, v8_at]

/-- The normalised matrix. -/
theorem v14_at (A : FVec Ideal S10000x10000 .f32) (i j : Fin 10000) :
    ReadP.val_main_v14 (F := Ideal) A (ix2 i j) = Spec.An A i j := by
  rw [ReadP.val_main_v14_apply, ReadP.val_main_v11_apply, v6_at, v10_at, v13_at, Ideal.mulf_def, Ideal.mulf_def]
  rfl

/-! ## The heads' weights: a slice of one layer and one head, with the two unit axes dropped -/

theorem v17_at (W : FVec Ideal S2x4x128x32 .f32) (k : Fin 128) (e : Fin 32) :
    ReadP.val_main_v17 (F := Ideal) W (ix2 k e) = W (ix4 (0 : Fin 2) (0 : Fin 4) k e) := by
  rw [ReadP.val_main_v17_apply, ReadP.val_main_v16_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v20_at (W : FVec Ideal S2x4x128x32 .f32) (k : Fin 128) (e : Fin 32) :
    ReadP.val_main_v20 (F := Ideal) W (ix2 k e) = W (ix4 (0 : Fin 2) (1 : Fin 4) k e) := by
  rw [ReadP.val_main_v20_apply, ReadP.val_main_v19_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v23_at (W : FVec Ideal S2x4x128x32 .f32) (k : Fin 128) (e : Fin 32) :
    ReadP.val_main_v23 (F := Ideal) W (ix2 k e) = W (ix4 (0 : Fin 2) (2 : Fin 4) k e) := by
  rw [ReadP.val_main_v23_apply, ReadP.val_main_v22_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v26_at (W : FVec Ideal S2x4x128x32 .f32) (k : Fin 128) (e : Fin 32) :
    ReadP.val_main_v26 (F := Ideal) W (ix2 k e) = W (ix4 (0 : Fin 2) (3 : Fin 4) k e) := by
  rw [ReadP.val_main_v26_apply, ReadP.val_main_v25_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v32_at (W : FVec Ideal S2x4x128x32 .f32) (k : Fin 128) (e : Fin 32) :
    ReadP.val_main_v32 (F := Ideal) W (ix2 k e) = W (ix4 (1 : Fin 2) (0 : Fin 4) k e) := by
  rw [ReadP.val_main_v32_apply, ReadP.val_main_v31_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v35_at (W : FVec Ideal S2x4x128x32 .f32) (k : Fin 128) (e : Fin 32) :
    ReadP.val_main_v35 (F := Ideal) W (ix2 k e) = W (ix4 (1 : Fin 2) (1 : Fin 4) k e) := by
  rw [ReadP.val_main_v35_apply, ReadP.val_main_v34_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v38_at (W : FVec Ideal S2x4x128x32 .f32) (k : Fin 128) (e : Fin 32) :
    ReadP.val_main_v38 (F := Ideal) W (ix2 k e) = W (ix4 (1 : Fin 2) (2 : Fin 4) k e) := by
  rw [ReadP.val_main_v38_apply, ReadP.val_main_v37_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

theorem v41_at (W : FVec Ideal S2x4x128x32 .f32) (k : Fin 128) (e : Fin 32) :
    ReadP.val_main_v41 (F := Ideal) W (ix2 k e) = W (ix4 (1 : Fin 2) (3 : Fin 4) k e) := by
  rw [ReadP.val_main_v41_apply, ReadP.val_main_v40_apply]
  refine congrArg W (funext fun a => Fin.ext ?_)
  have hk := k.isLt
  have he := e.isLt
  match a with
  | ⟨0, _⟩ => rfl
  | ⟨1, _⟩ => rfl
  | ⟨2, _⟩ => show (k.val * 32 + e.val) / 32 % 128 = k.val; omega
  | ⟨3, _⟩ => show (k.val * 32 + e.val) % 32 = e.val; omega

/-! ## The first layer -/

/-- The normalised matrix times the features. -/
theorem v15_at (A : FVec Ideal S10000x10000 .f32) (x : FVec Ideal S10000x128 .f32) (i : Fin 10000) (k : Fin 128) :
    ReadP.val_main_v15 (F := Ideal) A x (ix2 i k)
      = ∑ j : Fin 10000, ReadP.val_main_v14 (F := Ideal) A (ix2 i j) * x (ix2 j k) := by
  rw [ReadP.val_main_v15_apply]
  refine Finset.sum_congr rfl fun j _ => ?_
  rw [show ReadP.lidx_main_v15 (ix2 i k) j = ix2 i j from by idx_eq2,
    show ReadP.ridx_main_v15 (ix2 i k) j = ix2 j k from by idx_eq2]

theorem v18_at (A : FVec Ideal S10000x10000 .f32) (x : FVec Ideal S10000x128 .f32) (W : FVec Ideal S2x4x128x32 .f32)
    (i : Fin 10000) (e : Fin 32) :
    ReadP.val_main_v18 (F := Ideal) A x W (ix2 i e)
      = ∑ k : Fin 128, ReadP.val_main_v15 (F := Ideal) A x (ix2 i k) * ReadP.val_main_v17 (F := Ideal) W (ix2 k e) := by
  rw [ReadP.val_main_v18_apply]
  refine Finset.sum_congr rfl fun k _ => ?_
  rw [show ReadP.lidx_main_v18 (ix2 i e) k = ix2 i k from by idx_eq2,
    show ReadP.ridx_main_v18 (ix2 i e) k = ix2 k e from by idx_eq2]

theorem v21_at (A : FVec Ideal S10000x10000 .f32) (x : FVec Ideal S10000x128 .f32) (W : FVec Ideal S2x4x128x32 .f32)
    (i : Fin 10000) (e : Fin 32) :
    ReadP.val_main_v21 (F := Ideal) A x W (ix2 i e)
      = ∑ k : Fin 128, ReadP.val_main_v15 (F := Ideal) A x (ix2 i k) * ReadP.val_main_v20 (F := Ideal) W (ix2 k e) := by
  rw [ReadP.val_main_v21_apply]
  refine Finset.sum_congr rfl fun k _ => ?_
  rw [show ReadP.lidx_main_v21 (ix2 i e) k = ix2 i k from by idx_eq2,
    show ReadP.ridx_main_v21 (ix2 i e) k = ix2 k e from by idx_eq2]

theorem v24_at (A : FVec Ideal S10000x10000 .f32) (x : FVec Ideal S10000x128 .f32) (W : FVec Ideal S2x4x128x32 .f32)
    (i : Fin 10000) (e : Fin 32) :
    ReadP.val_main_v24 (F := Ideal) A x W (ix2 i e)
      = ∑ k : Fin 128, ReadP.val_main_v15 (F := Ideal) A x (ix2 i k) * ReadP.val_main_v23 (F := Ideal) W (ix2 k e) := by
  rw [ReadP.val_main_v24_apply]
  refine Finset.sum_congr rfl fun k _ => ?_
  rw [show ReadP.lidx_main_v24 (ix2 i e) k = ix2 i k from by idx_eq2,
    show ReadP.ridx_main_v24 (ix2 i e) k = ix2 k e from by idx_eq2]

theorem v27_at (A : FVec Ideal S10000x10000 .f32) (x : FVec Ideal S10000x128 .f32) (W : FVec Ideal S2x4x128x32 .f32)
    (i : Fin 10000) (e : Fin 32) :
    ReadP.val_main_v27 (F := Ideal) A x W (ix2 i e)
      = ∑ k : Fin 128, ReadP.val_main_v15 (F := Ideal) A x (ix2 i k) * ReadP.val_main_v26 (F := Ideal) W (ix2 k e) := by
  rw [ReadP.val_main_v27_apply]
  refine Finset.sum_congr rfl fun k _ => ?_
  rw [show ReadP.lidx_main_v27 (ix2 i e) k = ix2 i k from by idx_eq2,
    show ReadP.ridx_main_v27 (ix2 i e) k = ix2 k e from by idx_eq2]

/-- The four heads joined along the columns: the first layer of the specification on the features. -/
theorem v28_at (A : FVec Ideal S10000x10000 .f32) (x : FVec Ideal S10000x128 .f32) (W : FVec Ideal S2x4x128x32 .f32)
    (i : Fin 10000) (c : Fin 128) :
    ReadP.val_main_v28 (F := Ideal) A x W (ix2 i c) = Spec.layerR A W (fun j k => x (ix2 j k)) 0 i c := by
  unfold ReadP.val_main_v28
  exact (concat4_apply _ _ _ _ _ i c).trans
    (layer_of_stages A W 0 (fun j k => x (ix2 j k)) (ReadP.val_main_v14 (F := Ideal) A) (ReadP.val_main_v15 (F := Ideal) A x)
      (ReadP.val_main_v17 (F := Ideal) W) (ReadP.val_main_v20 (F := Ideal) W) (ReadP.val_main_v23 (F := Ideal) W)
      (ReadP.val_main_v26 (F := Ideal) W)
      (ReadP.val_main_v18 (F := Ideal) A x W) (ReadP.val_main_v21 (F := Ideal) A x W) (ReadP.val_main_v24 (F := Ideal) A x W)
      (ReadP.val_main_v27 (F := Ideal) A x W)
      (v14_at A) (v15_at A x) (v17_at W) (v20_at W) (v23_at W) (v26_at W)
      (v18_at A x W) (v21_at A x W) (v24_at A x W) (v27_at A x W) i c)

/-! ## The rectifier -/

/-- The maximum with the broadcast zero word: the hidden activations of the specification. -/
theorem v29_at (A : FVec Ideal S10000x10000 .f32) (x : FVec Ideal S10000x128 .f32) (W : FVec Ideal S2x4x128x32 .f32)
    (j : Fin 10000) (k : Fin 128) :
    ReadP.val_main_v29 (F := Ideal) A x W (ix2 j k) = Spec.x1 A x W j k := by
  rw [ReadP.val_main_v29_apply, v28_at, ReadP.val_main_call0_v0_apply, ReadP.val_main_call0_cst_apply, Ideal.ofBits_def,
    Ideal.ofBits_zero_f32, Ideal.maximumf_def]
  rfl

/-! ## The second layer -/

/-- The normalised matrix times the hidden activations. -/
theorem v30_at (A : FVec Ideal S10000x10000 .f32) (x : FVec Ideal S10000x128 .f32) (W : FVec Ideal S2x4x128x32 .f32)
    (i : Fin 10000) (k : Fin 128) :
    ReadP.val_main_v30 (F := Ideal) A x W (ix2 i k)
      = ∑ j : Fin 10000, ReadP.val_main_v14 (F := Ideal) A (ix2 i j) * Spec.x1 A x W j k := by
  rw [ReadP.val_main_v30_apply]
  refine Finset.sum_congr rfl fun j _ => ?_
  rw [show ReadP.lidx_main_v30 (ix2 i k) j = ix2 i j from by idx_eq2,
    show ReadP.ridx_main_v30 (ix2 i k) j = ix2 j k from by idx_eq2, v29_at]

theorem v33_at (A : FVec Ideal S10000x10000 .f32) (x : FVec Ideal S10000x128 .f32) (W : FVec Ideal S2x4x128x32 .f32)
    (i : Fin 10000) (e : Fin 32) :
    ReadP.val_main_v33 (F := Ideal) A x W (ix2 i e)
      = ∑ k : Fin 128, ReadP.val_main_v30 (F := Ideal) A x W (ix2 i k) * ReadP.val_main_v32 (F := Ideal) W (ix2 k e) := by
  rw [ReadP.val_main_v33_apply]
  refine Finset.sum_congr rfl fun k _ => ?_
  rw [show ReadP.lidx_main_v33 (ix2 i e) k = ix2 i k from by idx_eq2,
    show ReadP.ridx_main_v33 (ix2 i e) k = ix2 k e from by idx_eq2]

theorem v36_at (A : FVec Ideal S10000x10000 .f32) (x : FVec Ideal S10000x128 .f32) (W : FVec Ideal S2x4x128x32 .f32)
    (i : Fin 10000) (e : Fin 32) :
    ReadP.val_main_v36 (F := Ideal) A x W (ix2 i e)
      = ∑ k : Fin 128, ReadP.val_main_v30 (F := Ideal) A x W (ix2 i k) * ReadP.val_main_v35 (F := Ideal) W (ix2 k e) := by
  rw [ReadP.val_main_v36_apply]
  refine Finset.sum_congr rfl fun k _ => ?_
  rw [show ReadP.lidx_main_v36 (ix2 i e) k = ix2 i k from by idx_eq2,
    show ReadP.ridx_main_v36 (ix2 i e) k = ix2 k e from by idx_eq2]

theorem v39_at (A : FVec Ideal S10000x10000 .f32) (x : FVec Ideal S10000x128 .f32) (W : FVec Ideal S2x4x128x32 .f32)
    (i : Fin 10000) (e : Fin 32) :
    ReadP.val_main_v39 (F := Ideal) A x W (ix2 i e)
      = ∑ k : Fin 128, ReadP.val_main_v30 (F := Ideal) A x W (ix2 i k) * ReadP.val_main_v38 (F := Ideal) W (ix2 k e) := by
  rw [ReadP.val_main_v39_apply]
  refine Finset.sum_congr rfl fun k _ => ?_
  rw [show ReadP.lidx_main_v39 (ix2 i e) k = ix2 i k from by idx_eq2,
    show ReadP.ridx_main_v39 (ix2 i e) k = ix2 k e from by idx_eq2]

theorem v42_at (A : FVec Ideal S10000x10000 .f32) (x : FVec Ideal S10000x128 .f32) (W : FVec Ideal S2x4x128x32 .f32)
    (i : Fin 10000) (e : Fin 32) :
    ReadP.val_main_v42 (F := Ideal) A x W (ix2 i e)
      = ∑ k : Fin 128, ReadP.val_main_v30 (F := Ideal) A x W (ix2 i k) * ReadP.val_main_v41 (F := Ideal) W (ix2 k e) := by
  rw [ReadP.val_main_v42_apply]
  refine Finset.sum_congr rfl fun k _ => ?_
  rw [show ReadP.lidx_main_v42 (ix2 i e) k = ix2 i k from by idx_eq2,
    show ReadP.ridx_main_v42 (ix2 i e) k = ix2 k e from by idx_eq2]

/-- The reference's result at row i and column c is the specification's materialised form there. -/
theorem val_main_v43_spec (A : FVec Ideal S10000x10000 .f32) (x : FVec Ideal S10000x128 .f32) (W : FVec Ideal S2x4x128x32 .f32)
    (i : Fin 10000) (c : Fin 128) :
    Cert.ReferenceIdeal.ReadP.val_main_v43 (F := Ideal) A x W (Idealize.ShloMosaic.ValueIdx.ix2 i c) = Cert.Spec.outR A x W i c := by
  unfold ReadP.val_main_v43 Spec.outR
  exact (concat4_apply _ _ _ _ _ i c).trans
    (layer_of_stages A W 1 (Spec.x1 A x W) (ReadP.val_main_v14 (F := Ideal) A) (ReadP.val_main_v30 (F := Ideal) A x W)
      (ReadP.val_main_v32 (F := Ideal) W) (ReadP.val_main_v35 (F := Ideal) W) (ReadP.val_main_v38 (F := Ideal) W)
      (ReadP.val_main_v41 (F := Ideal) W)
      (ReadP.val_main_v33 (F := Ideal) A x W) (ReadP.val_main_v36 (F := Ideal) A x W) (ReadP.val_main_v39 (F := Ideal) A x W)
      (ReadP.val_main_v42 (F := Ideal) A x W)
      (v14_at A) (v30_at A x W) (v32_at W) (v35_at W) (v38_at W) (v41_at W)
      (v33_at A x W) (v36_at A x W) (v39_at A x W) (v42_at A x W) i c)

end Cert.RefSide

end
-- ==== Proof.PreFacts.lean ====
/-
  What the precondition says, read at the extended reals.

  The predicate is the conjunction of four "for all" tests, each a reduction by "and" from the constant 1: every entry of
  the weight matrix A, of the node features x and of the layer weights W has absolute value strictly below +∞ (the f32
  pattern 0x7F800000), and every row sum of A + I lies strictly above zero. The identity matrix is built as the
  reference builds its degree: the row word i (a row iota plus a zero word) is compared for equality with the column
  word k and the bit is converted to a float; both words are below 2³², so the bit is 1 exactly when i = k. The row sum
  starts from the zero word.

  Where the predicate is 1 at its one index, all four conjuncts are 1, and a reduction by "and" that came out 1 met
  only 1s. An extended real a with max a (-a) < ⊤ is neither ⊤ nor ⊥, so it is a real number; and the comparison
  bit "0 < Σ_k (A i k + I i k)" being 1 is the inequality itself, whose left side is the degree of row i in the
  materialised form.
-/
import proofs.«137941_g48387101557188_cont_8to1_c_480_3_alg».proof.Pre_finite_inputs
import proofs.«137941_g48387101557188_cont_8to1_c_480_3_alg».proof.Proof.Spec
import Idealize.ShloMosaic.Lib.ReduceAll
import Idealize.ShloMosaic.Lib.StableHlo.Predicate
import Idealize.ShloMosaic.PureOps.Ideal.Laws
import Idealize.ShloMosaic.Lib.ValueIdx
import Idealize.ShloMosaic.Lib.IdealHost

noncomputable section

namespace Cert.PreFacts

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-! ## The element facts -/

/-- An extended real whose absolute value lies strictly below +∞ (the pattern 0x7F800000) is a real number: at ⊤ the
    absolute value is ⊤, at ⊥ it is max ⊥ ⊤ = ⊤, and ⊤ < ⊤ fails. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- The word compare that builds the identity matrix: row word i (plus the zero word) equals column word k exactly when
    i = k, both below 2³², so the converted bit is the identity matrix's entry. -/
theorem eye_word (i k : Fin 10000) :
    (FloatOps.uitofp (F := Ideal) .f32
        (IntOp.cmpi .eq (IntOp.addi (BitVec.ofNat 32 i.val) 0#32) (BitVec.ofNat 32 k.val)) : EReal)
      = Cert.Spec.eye i k := by
  unfold Cert.Spec.eye
  have hadd : IntOp.addi (BitVec.ofNat 32 i.val) 0#32 = BitVec.ofNat 32 i.val := by
    show BitVec.ofNat 32 i.val + 0#32 = _
    exact BitVec.add_zero _
  rw [hadd]
  by_cases hik : i = k
  · subst hik
    rw [if_pos rfl, StableHlo.Predicate.cmpi_eq_iff.2 rfl]
    show (((1#1 : BitVec 1).toNat : ℝ) : EReal) = 1
    simp
  · have hne : BitVec.ofNat 32 i.val ≠ BitVec.ofNat 32 k.val := by
      intro e
      have e' := congrArg BitVec.toNat e
      simp only [BitVec.toNat_ofNat] at e'
      have hi := i.isLt
      have hk := k.isLt
      rw [Nat.mod_eq_of_lt (by omega), Nat.mod_eq_of_lt (by omega)] at e'
      exact hik (Fin.ext e')
    have hc : IntOp.cmpi .eq (BitVec.ofNat 32 i.val) (BitVec.ofNat 32 k.val) = 0#1 := by
      rcases BitVec.eq_zero_or_eq_one (IntOp.cmpi .eq (BitVec.ofNat 32 i.val) (BitVec.ofNat 32 k.val)) with h | h
      · exact h
      · exact absurd (StableHlo.Predicate.cmpi_eq_iff.1 h) hne
    rw [if_neg hik, hc]
    show (((0#1 : BitVec 1).toNat : ℝ) : EReal) = 0
    simp

/-- The host's row sum from the zero word, read at row i: the sum over the columns of the operand at (i, k). -/
theorem rowSum_apply (y : FVec Ideal S10000x10000 .f32) (i : Fin 10000) :
    Host.reduceAdd y (constant S_ .f32 0x00000000#32) Facts.reducesTo_S10000x10000_S10000_d1 Facts.h_S_ (ix1 i)
      = ∑ k : Fin 10000, y (ix2 i k) := by
  rw [hostReduceAdd_apply, Ideal.hostReduceAdd_single Facts.reducesTo_S10000x10000_S10000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-! ## The printed predicate, decoded -/

section Decode

variable (A : FVec Ideal S10000x10000 .f32) (x : FVec Ideal S10000x128 .f32) (W : FVec Ideal S2x4x128x32 .f32)

/-- The predicate is the conjunction of four reductions by "and"; where it is 1 each reduction's every element is 1:
    |A| < +∞, |x| < +∞ and |W| < +∞ at every index, and the row sum of A plus the identity above the zero word at
    every row. -/
theorem decode (h : fn (F := Ideal) A x W = fun _ => 1#1) :
    (∀ j, Ideal.cmp .olt (max (A j) (-(A j))) (Ideal.ofBits .f32 0x7F800000#32) = 1#1)
    ∧ (∀ j, Ideal.cmp .olt (max (x j) (-(x j))) (Ideal.ofBits .f32 0x7F800000#32) = 1#1)
    ∧ (∀ j, Ideal.cmp .olt (max (W j) (-(W j))) (Ideal.ofBits .f32 0x7F800000#32) = 1#1)
    ∧ (∀ i : Fin 10000, Ideal.cmp .ogt (∑ k : Fin 10000, (A (ix2 i k) + Cert.Spec.eye i k)) 0 = 1#1) := by
  have h0 := congrFun h ix0
  unfold fn fn_part1 at h0
  dsimp only at h0
  change IntOp.andi (IntOp.andi (IntOp.andi _ _) _) _ = 1#1 at h0
  obtain ⟨h123, h4⟩ := IntOp.andi_eq_one.1 h0
  obtain ⟨h12, h3⟩ := IntOp.andi_eq_one.1 h123
  obtain ⟨h1, h2⟩ := IntOp.andi_eq_one.1 h12
  refine ⟨fun j => ?_, fun j => ?_, fun j => ?_, fun i => ?_⟩
  · exact Host.reduce_andi_all _ _ _ _ _ h1 j
  · exact Host.reduce_andi_all _ _ _ _ _ h2 j
  · exact Host.reduce_andi_all _ _ _ _ _ h3 j
  · have e := Host.reduce_andi_all _ _ _ _ _ h4 (ix1 i)
    rw [cmpf_apply, rowSum_apply] at e
    have hsum : ∀ k : Fin 10000,
        addf A (uitofp .f32 (cmpi .eq (addi (iotaInDim S10000x10000 32 0)
          (broadcastInDim S10000x10000 ![] Facts.bcast_S_S10000x10000 (constantI S_ 32 0#32))) (iotaInDim S10000x10000 32 1))) (ix2 i k)
          = A (ix2 i k) + Cert.Spec.eye i k := fun k => by
      rw [← eye_word i k]; rfl
    rw [Finset.sum_congr rfl fun k _ => hsum k] at e
    have hz : broadcastInDim S10000 ![] Facts.bcast_S_S10000 (constant (F := Ideal) S_ .f32 0x00000000#32) (ix1 i) = 0 :=
      Ideal.ofBits_zero_f32
    rw [hz] at e
    exact e

end Decode

/-! ## The four facts -/

theorem finite_A (A : FVec Ideal Cert.Pre_finite_inputs.S10000x10000 .f32) (x : FVec Ideal Cert.Pre_finite_inputs.S10000x128 .f32) (W : FVec Ideal Cert.Pre_finite_inputs.S2x4x128x32 .f32)
    (h : Cert.Pre_finite_inputs.fn (F := Ideal) A x W = fun _ => 1#1) : ∀ j, ∃ r : ℝ, A j = (r : EReal) :=
  fun j => real_of_abs_lt (A j) ((decode A x W h).1 j)

theorem finite_x (A : FVec Ideal Cert.Pre_finite_inputs.S10000x10000 .f32) (x : FVec Ideal Cert.Pre_finite_inputs.S10000x128 .f32) (W : FVec Ideal Cert.Pre_finite_inputs.S2x4x128x32 .f32)
    (h : Cert.Pre_finite_inputs.fn (F := Ideal) A x W = fun _ => 1#1) : ∀ j, ∃ r : ℝ, x j = (r : EReal) :=
  fun j => real_of_abs_lt (x j) ((decode A x W h).2.1 j)

theorem finite_W (A : FVec Ideal Cert.Pre_finite_inputs.S10000x10000 .f32) (x : FVec Ideal Cert.Pre_finite_inputs.S10000x128 .f32) (W : FVec Ideal Cert.Pre_finite_inputs.S2x4x128x32 .f32)
    (h : Cert.Pre_finite_inputs.fn (F := Ideal) A x W = fun _ => 1#1) : ∀ j, ∃ r : ℝ, W j = (r : EReal) :=
  fun j => real_of_abs_lt (W j) ((decode A x W h).2.2.1 j)

/-- Every degree is positive: the comparison bit is 1 exactly when 0 lies strictly below the row sum. -/
theorem deg_pos (A : FVec Ideal Cert.Pre_finite_inputs.S10000x10000 .f32) (x : FVec Ideal Cert.Pre_finite_inputs.S10000x128 .f32) (W : FVec Ideal Cert.Pre_finite_inputs.S2x4x128x32 .f32)
    (h : Cert.Pre_finite_inputs.fn (F := Ideal) A x W = fun _ => 1#1) : ∀ i : Fin 10000, 0 < Cert.Spec.degR A i := by
  intro i
  have e := (decode A x W h).2.2.2 i
  unfold Ideal.cmp at e
  exact of_decide_eq_true ((StableHlo.Predicate.ofBool_eq_one_iff _).1 e)

end Cert.PreFacts

end
-- ==== Proof.Algebra.lean ====
/-
  The streaming form and the materialised form of the two-layer normalised aggregation agree on real entries with
  positive degrees.

  Every entry is the coercion of a real number, so every quantity of either form is the coercion of a real expression
  (sums, products and maxima of coercions are coercions; the reciprocal square root of a positive real is a real). On
  the reals the identity per row i and feature k is

      Σ_j ((a i j + δ i j) · r i) · r j · z j = r i · (Σ_j a i j · (r j · z j) + r i · z i),

  distributivity over the finite sum, the δ term contributing the one summand j = i. It is used once with z the input
  features and once with z the rectified hidden activations.
-/
import proofs.«137941_g48387101557188_cont_8to1_c_480_3_alg».proof.Proof.Spec
import Mathlib.Data.EReal.Basic
import Mathlib.Analysis.Real.Sqrt
import Mathlib.Algebra.BigOperators.Group.Finset.Basic
import Mathlib.Algebra.BigOperators.Group.Finset.Piecewise
import Mathlib.Algebra.BigOperators.Ring.Finset

noncomputable section

namespace Cert.Spec

open Idealize.ShloMosaic Idealize.ShloMosaic.ValueIdx

namespace Agg

/-! ## Coercions out of finite sums and maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rectifier of a coercion is the coercion of the rectifier. -/
theorem max_coe_zero (u : ℝ) : max (u : EReal) 0 = ((max u 0 : ℝ) : EReal) := by
  rcases le_total u 0 with h | h
  · rw [max_eq_right h, max_eq_right (by exact_mod_cast h), EReal.coe_zero]
  · rw [max_eq_left h, max_eq_left (by exact_mod_cast h)]

/-- The identity matrix's entries are coercions. -/
theorem eye_coe (i j : Fin 10000) : eye i j = ((if i = j then 1 else 0 : ℝ) : EReal) := by
  unfold eye
  split_ifs <;> simp

/-! ## The identity on the reals -/

/-- One row of the normalised aggregation, streamed: distributivity, the diagonal term giving the summand j = i. -/
theorem real_agg {ι : Type*} [Fintype ι] [DecidableEq ι] (a : ι → ι → ℝ) (r z : ι → ℝ) (i : ι) :
    ∑ j, ((a i j + (if i = j then 1 else 0)) * r i) * r j * z j
      = r i * ((∑ j, a i j * (r j * z j)) + r i * z i) := by
  have h : ∀ j, ((a i j + (if i = j then 1 else 0)) * r i) * r j * z j
      = r i * (a i j * (r j * z j)) + (if i = j then r i * (r j * z j) else 0) := by
    intro j
    split_ifs <;> ring
  simp only [h, Finset.sum_add_distrib, Finset.sum_ite_eq, Finset.mem_univ, if_true, ← Finset.mul_sum]
  ring

/-! ## The real versions of the degrees and scales -/

variable (a : SA.Idx → ℝ) (xr : SX.Idx → ℝ) (w : SW.Idx → ℝ)

/-- The degree of row i as a real number. -/
def dg (i : Fin 10000) : ℝ := (∑ j : Fin 10000, a (ix2 i j)) + 1
/-- The scale of row i as a real number. -/
def rr (i : Fin 10000) : ℝ := (Real.sqrt (dg a i))⁻¹

theorem degK_coe (i : Fin 10000) : degK (fun j => (a j : EReal)) i = (dg a i : EReal) := by
  unfold degK dg
  rw [EReal.coe_add, coe_sum, EReal.coe_one]

theorem degR_coe (i : Fin 10000) : degR (fun j => (a j : EReal)) i = (dg a i : EReal) := by
  unfold degR dg
  simp only [eye_coe, ← EReal.coe_add, ← coe_sum]
  rw [Finset.sum_add_distrib, Finset.sum_ite_eq]
  simp

theorem rsqrt_pos_coe {d : ℝ} (h : 0 < d) : Ideal.rsqrt (d : EReal) = (((Real.sqrt d)⁻¹ : ℝ) : EReal) := by
  rw [Ideal.rsqrt_coe, if_neg (not_lt.2 h.le), if_neg h.ne']

theorem dK_coe (i : Fin 10000) (h : 0 < dg a i) : dK (fun j => (a j : EReal)) i = (rr a i : EReal) := by
  unfold dK rr
  rw [degK_coe, rsqrt_pos_coe h]

theorem dR_coe (i : Fin 10000) (h : 0 < dg a i) : dR (fun j => (a j : EReal)) i = (rr a i : EReal) := by
  unfold dR rr
  rw [degR_coe, rsqrt_pos_coe h]

/-! ## One layer -/

/-- The materialised layer on real features, as a real number. -/
def lR (z : Fin 10000 → Fin 128 → ℝ) (l : Fin 2) (i : Fin 10000) (c : Fin 128) : ℝ :=
  ∑ k : Fin 128, (∑ j : Fin 10000,
    ((a (ix2 i j) + (if i = j then 1 else 0)) * rr a i) * rr a j * z j k) * w (ix4 l (hd c) k (he c))

variable (hpos : ∀ i, 0 < dg a i)
include hpos

/-- The materialised layer on coerced features is the coercion of its real version. -/
theorem layerR_coe (z : Fin 10000 → Fin 128 → ℝ) (l : Fin 2) (i : Fin 10000) (c : Fin 128) :
    layerR (fun j => (a j : EReal)) (fun j => (w j : EReal)) (fun j k => (z j k : EReal)) l i c
      = (lR a w z l i c : EReal) := by
  unfold layerR lR An wl
  simp only [eye_coe, fun j => dR_coe a j (hpos j), ← EReal.coe_add, ← EReal.coe_mul, ← coe_sum]

/-- The materialised layer on z is the streaming layer on r · z. -/
theorem layerR_eq_layerK (z : Fin 10000 → Fin 128 → ℝ) (l : Fin 2) (i : Fin 10000) (c : Fin 128) :
    layerR (fun j => (a j : EReal)) (fun j => (w j : EReal)) (fun j k => (z j k : EReal)) l i c
      = layerK (fun j => (a j : EReal)) (fun j => (w j : EReal))
          (fun j k => dK (fun j => (a j : EReal)) j * (z j k : EReal)) l i c := by
  rw [layerR_coe a w hpos]
  unfold layerK lR wl
  simp only [fun j => dK_coe a j (hpos j), ← EReal.coe_add, ← EReal.coe_mul, ← coe_sum]
  rw [EReal.coe_eq_coe_iff]
  refine Finset.sum_congr rfl fun k _ => ?_
  rw [real_agg (fun i j => a (ix2 i j)) (rr a) (fun j => z j k) i]

/-! ## Two layers -/

theorem outK_eq_outR_real (i : Fin 10000) (c : Fin 128) :
    outK (fun j => (a j : EReal)) (fun j => (xr j : EReal)) (fun j => (w j : EReal)) i c
      = outR (fun j => (a j : EReal)) (fun j => (xr j : EReal)) (fun j => (w j : EReal)) i c := by
  -- the first layer: the materialised form on x is the streaming form on y1 = r · x
  have h1 : ∀ i c, layerR (fun j => (a j : EReal)) (fun j => (w j : EReal))
        (fun i k => (fun j => (xr j : EReal)) (ix2 i k)) 0 i c
      = layerK (fun j => (a j : EReal)) (fun j => (w j : EReal))
          (y1 (fun j => (a j : EReal)) (fun j => (xr j : EReal))) 0 i c := fun i c =>
    layerR_eq_layerK a w hpos (fun i k => xr (ix2 i k)) 0 i c
  -- the hidden activations are coercions of reals
  have hx1 : ∀ i c, x1 (fun j => (a j : EReal)) (fun j => (xr j : EReal)) (fun j => (w j : EReal)) i c
      = ((max (lR a w (fun i k => xr (ix2 i k)) 0 i c) 0 : ℝ) : EReal) := fun i c => by
    unfold x1
    rw [← max_coe_zero]
    exact congrArg (fun t => max t 0) (layerR_coe a w hpos (fun i k => xr (ix2 i k)) 0 i c)
  -- the streaming form's scaled hidden activations are r · x1
  have hy2 : y2 (fun j => (a j : EReal)) (fun j => (xr j : EReal)) (fun j => (w j : EReal))
      = fun j k => dK (fun j => (a j : EReal)) j
          * ((max (lR a w (fun i k => xr (ix2 i k)) 0 j k) 0 : ℝ) : EReal) := by
    funext j k
    unfold y2
    rw [← h1 j k, ← hx1 j k]
    rfl
  unfold outK outR
  rw [hy2, ← layerR_eq_layerK a w hpos]
  exact congrArg (fun z => layerR _ _ z 1 i c) (funext fun j => funext fun k => (hx1 j k).symm)

end Agg

open Agg in
/-- The two forms agree on real entries with positive degrees. -/
theorem outK_eq_outR (A : SA.Idx → EReal) (x : SX.Idx → EReal) (W : SW.Idx → EReal)
    (hA : ∀ j, ∃ r : ℝ, A j = (r : EReal)) (hx : ∀ j, ∃ r : ℝ, x j = (r : EReal))
    (hW : ∀ j, ∃ r : ℝ, W j = (r : EReal)) (hdeg : ∀ i, 0 < degR A i) (i : Fin 10000) (c : Fin 128) :
    outK A x W i c = outR A x W i c := by
  choose a ha using hA
  choose xr hxr using hx
  choose w hw using hW
  obtain rfl : A = fun j => (a j : EReal) := funext ha
  obtain rfl : x = fun j => (xr j : EReal) := funext hxr
  obtain rfl : W = fun j => (w j : EReal) := funext hw
  have hpos : ∀ i, 0 < dg a i := fun i => by
    have := hdeg i
    rw [degR_coe] at this
    exact EReal.coe_pos.1 this
  exact outK_eq_outR_real a xr w hpos i c

end Cert.Spec

end
-- ==== Proof.lean ====
/-
  A two-layer graph convolution with symmetric normalisation, streamed against materialised.

  The reference builds Â = A + I, its row degrees, r = deg^(-1/2), the normalised matrix Ân = (Â · r_i) · r_j, and runs
  two layers z ↦ (Ân z) · Wl (four heads side by side), a rectifier between them. The kernel never builds Ân: one pass
  over A gives r and the row-scaled features y = r · x; each layer is then one more pass, r_i · ((A y)_i + y_i), times the
  stacked weights, the hidden layer emitted already rectified and scaled by r.

  The two agree wherever the degrees are positive reals: the reference's own reciprocal square root is defined only
  there, and that is the one conjunct the precondition adds to the inputs' finiteness. Under it every r_i is a positive
  real, every quantity of either program is a real number, and the identity is distributivity of the product over a
  finite sum, the diagonal of Â contributing the summand r_i · y_i (Proof/Algebra.lean). Without it the claim fails: at a
  row of degree zero r is +∞, the reference sums +∞ and −∞ to −∞ where the kernel multiplies +∞ by a finite positive
  sum.

  The three frames: both kernel programs run as three grid passes among two stretches of host operations, every core
  holding all its buffers at known contents between items (Proof/KB, Proof/KI); the reference is a straight line of host
  operations (Proof/RefRunH.lean). The value of the streamed program is read off its run array by array
  (Proof/KI/Value.lean), the reference's off its operations index by index (Proof/RefSide.lean); what the precondition
  says is decoded in Proof/PreFacts.lean. No idealization rewrote an operation, so the preservation claim is empty.
-/
import proofs.«137941_g48387101557188_cont_8to1_c_480_3_alg».proof.Defs
import proofs.«137941_g48387101557188_cont_8to1_c_480_3_alg».proof.Proof.Gen.Kernel
import proofs.«137941_g48387101557188_cont_8to1_c_480_3_alg».proof.Proof.Gen.KernelIdeal
import proofs.«137941_g48387101557188_cont_8to1_c_480_3_alg».proof.Proof.Gen.ReferenceIdeal
import proofs.«137941_g48387101557188_cont_8to1_c_480_3_alg».proof.Proof.Gen.Pre_finite_inputs
import proofs.«137941_g48387101557188_cont_8to1_c_480_3_alg».proof.Proof.KB.Run
import proofs.«137941_g48387101557188_cont_8to1_c_480_3_alg».proof.Proof.KI.Value
import proofs.«137941_g48387101557188_cont_8to1_c_480_3_alg».proof.Proof.RefRunH
import proofs.«137941_g48387101557188_cont_8to1_c_480_3_alg».proof.Proof.RefSide
import proofs.«137941_g48387101557188_cont_8to1_c_480_3_alg».proof.Proof.PreFacts
import proofs.«137941_g48387101557188_cont_8to1_c_480_3_alg».proof.Proof.Algebra

noncomputable section

namespace Cert.Proof

open Idealize.ShloMosaic Idealize.ShloMosaic.TcCoe Idealize.SL.Sem Idealize.ShloMosaic.ValueIdx

/-- The program as printed runs to the end, faults nowhere and leaves its arguments unchanged. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueH.run (F := Ideal) m ρ)

/-- The streamed program ends with its result array at the streaming form of its arguments, the reference with its
    result array at the materialised form of the same arguments; the precondition makes every entry real and every
    degree positive, where the two forms are one function. -/
theorem algebraic : Cert.algebraic_KernelIdeal_ReferenceIdeal := by
  intro m ρ m' ρ' hpre hagree
  refine ⟨fun c => (fun j : Cert.KernelIdeal.S10000x128.Idx =>
      Cert.Spec.outK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (j 0) (j 1)), ?_, ?_⟩
  · refine (θ_run Cert.KernelIdeal.defs _ _).mono (fun r h c => ⟨?_, ?_, ?_, ?_⟩) (Cert.KernelIdeal.Hand.run_all (F := Ideal) m ρ)
    · refine (h c _ (Cert.KernelIdeal.Hand.mem_uc Cert.KernelIdeal.main_v10 (by decide))).trans ?_
      funext j
      obtain ⟨p, q, rfl⟩ : ∃ (p : Fin 10000) (q : Fin 128), j = ix2 p q := ⟨j 0, j 1, eq_ix2 j⟩
      exact Cert.KernelIdeal.HandVal.W5_out m c p q
    · exact (h c _ (Cert.KernelIdeal.Hand.mem_uc Cert.KernelIdeal.main_arg0 (by decide))).trans (Cert.KernelIdeal.Hand.W5_main_arg0 m c)
    · exact (h c _ (Cert.KernelIdeal.Hand.mem_uc Cert.KernelIdeal.main_arg1 (by decide))).trans (Cert.KernelIdeal.Hand.W5_main_arg1 m c)
    · exact (h c _ (Cert.KernelIdeal.Hand.mem_uc Cert.KernelIdeal.main_arg2 (by decide))).trans (Cert.KernelIdeal.Hand.W5_main_arg2 m c)
  · refine (θ_run Cert.ReferenceIdeal.defs _ _).mono (fun r h c => ⟨(h c).1.trans ?_, (h c).2⟩)
      (Cert.ReferenceIdeal.ValueH.run (F := Ideal) m' ρ')
    rw [(hagree c).1, (hagree c).2.1, (hagree c).2.2]
    funext j
    obtain ⟨p, q, rfl⟩ : ∃ (p : Fin 10000) (q : Fin 128), j = ix2 p q := ⟨j 0, j 1, eq_ix2 j⟩
    refine (Cert.RefSide.val_main_v43_spec _ _ _ p q).trans ?_
    exact (Cert.Spec.outK_eq_outR _ _ _ (Cert.PreFacts.finite_A _ _ _ (hpre c)) (Cert.PreFacts.finite_x _ _ _ (hpre c))
      (Cert.PreFacts.finite_W _ _ _ (hpre c)) (Cert.PreFacts.deg_pos _ _ _ (hpre c)) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
